-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S128x64 .f32) (main_arg10 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 73
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S1x128, .f32⟩
  | .hbm, ⟨57, _⟩ => ⟨S50000x128, .f32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x64, .f32⟩
  | .hbm, ⟨72, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S128x64, .f32⟩
  | .local _ .vmem, ⟨29, _⟩ => ⟨S128x64, .f32⟩
  | .local _ .vmem, ⟨30, _⟩ => ⟨S1x64, .f32⟩
  | .local _ .vmem, ⟨31, _⟩ => ⟨S2000x64, .f32⟩
  | .local _ .vmem, ⟨32, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S1x800000, .i32⟩
  | 12 => ⟨S800000, .i32⟩
  | 13 => ⟨S1x800000, .i32⟩
  | 14 => ⟨S800000, .i32⟩
  | 15 => ⟨S_, .i32⟩
  | 16 => ⟨S800000, .i32⟩
  | 17 => ⟨S800000, .i1⟩
  | 18 => ⟨S_, .i32⟩
  | 19 => ⟨S800000, .i32⟩
  | 20 => ⟨S800000, .i32⟩
  | 21 => ⟨S800000, .i32⟩
  | 22 => ⟨S800000x1, .i32⟩
  | 23 => ⟨S800000x128, .f32⟩
  | 24 => ⟨S_, .f32⟩
  | 25 => ⟨S50000x128, .f32⟩
  | 26 => ⟨S800000x1, .i32⟩
  | 27 => ⟨S50000x128, .f32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S50000x1, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S50000x128, .f32⟩
  | 48 => ⟨S50000x128, .i1⟩
  | 49 => ⟨S_, .f32⟩
  | 50 => ⟨S50000x128, .f32⟩
  | 51 => ⟨S50000x128, .i1⟩
  | 52 => ⟨S_, .f32⟩
  | 53 => ⟨S_, .f32⟩
  | 54 => ⟨S50000x128, .f32⟩
  | 55 => ⟨S50000x128, .f32⟩
  | 56 => ⟨S50000x128, .f32⟩
  | 57 => ⟨S_, .f32⟩
  | 58 => ⟨S50000x128, .f32⟩
  | 59 => ⟨S50000x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S_, .f32⟩
  | 75 => ⟨S800000, .f32⟩
  | 76 => ⟨S_, .f32⟩
  | 77 => ⟨S50000, .f32⟩
  | 78 => ⟨S800000x1, .i32⟩
  | 79 => ⟨S50000, .f32⟩
  | 80 => ⟨S_, .f32⟩
  | 81 => ⟨S50000, .f32⟩
  | 82 => ⟨S50000, .f32⟩
  | 83 => ⟨S50000x1, .f32⟩
  | 84 => ⟨S50000x128, .f32⟩
  | 85 => ⟨S50000x128, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .i1⟩
  | 98 => ⟨S_, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S_, .f32⟩
  | 121 => ⟨S800000, .f32⟩
  | 122 => ⟨S_, .f32⟩
  | 123 => ⟨S50000, .f32⟩
  | 124 => ⟨S800000x1, .i32⟩
  | 125 => ⟨S50000, .f32⟩
  | 126 => ⟨S_, .f32⟩
  | 127 => ⟨S50000, .f32⟩
  | _ => ⟨S50000x128, .f32⟩

abbrev hbmTy0_1 (i : Nat) : BufTy := match i % 128 with
  | 0 => ⟨S50000, .f32⟩
  | 1 => ⟨S50000x1, .f32⟩
  | 2 => ⟨S50000x128, .f32⟩
  | 3 => ⟨S50000x128, .f32⟩
  | 4 => ⟨S50000x64, .f32⟩
  | 5 => ⟨S50000x64, .f32⟩
  | 6 => ⟨S50000x64, .f32⟩
  | 7 => ⟨S1x64, .f32⟩
  | 8 => ⟨S50000x64, .f32⟩
  | 9 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_cst_1 : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v4 : Ref sig .tc := ⟨.hbm, 55, rfl⟩
abbrev main_call0_v5 : Ref sig .tc := ⟨.hbm, 56, rfl⟩
abbrev main_call0_cst_2 : Ref sig .tc := ⟨.hbm, 57, rfl⟩
abbrev main_call0_v6 : Ref sig .tc := ⟨.hbm, 58, rfl⟩
abbrev main_call0_v7 : Ref sig .tc := ⟨.hbm, 59, rfl⟩
abbrev main_v29 : Ref sig .tc := ⟨.hbm, 60, rfl⟩
abbrev main_c_4 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_7 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_9 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_cst_1 : Ref sig .tc := ⟨.hbm, 98, rfl⟩
abbrev main_call1_call0_v0 : Ref sig .tc := ⟨.hbm, 99, rfl⟩
abbrev main_call1_call0_v1 : Ref sig .tc := ⟨.hbm, 100, rfl⟩
abbrev main_call1_v4 : Ref sig .tc := ⟨.hbm, 101, rfl⟩
abbrev main_call1_v5 : Ref sig .tc := ⟨.hbm, 102, rfl⟩
abbrev main_call1_cst_2 : Ref sig .tc := ⟨.hbm, 103, rfl⟩
abbrev main_call1_v6 : Ref sig .tc := ⟨.hbm, 104, rfl⟩
abbrev main_call1_v7 : Ref sig .tc := ⟨.hbm, 105, rfl⟩
abbrev main_v55 : Ref sig .tc := ⟨.hbm, 106, rfl⟩
abbrev main_c_10 : Ref sig .tc := ⟨.hbm, 107, rfl⟩
abbrev main_v56 : Ref sig .tc := ⟨.hbm, 108, rfl⟩
abbrev main_v57 : Ref sig .tc := ⟨.hbm, 109, rfl⟩
abbrev main_c_11 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_cst_12 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_13 : Ref sig .tc := ⟨.hbm, 120, rfl⟩
abbrev main_v66 : Ref sig .tc := ⟨.hbm, 121, rfl⟩
abbrev main_cst_14 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_cst_15 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
/-
  Mean-aggregating graph layers on the extended reals, entry by entry.

  A node's new feature vector is a linear map of the mean of its in-neighbours' features plus a linear map of
  its own, plus a bias: with `agg` the sum of the neighbours' rows, `rc` one factor per node (the reciprocal of
  its in-degree, at least one) and `h` the nodes' own rows, entry `(r, q)` of the layer is
  `∑ k, (agg (r, k) · rc r) · Wl (k, q)  +  ∑ k, h (r, k) · Wr (k, q)  +  b q`.
  The hidden layers pass it through ELU: `x` where `x > 0`, `e^x − 1` elsewhere.
  Stated for any number of rows `M`, so that the same formula reads a block of rows and the whole array.
-/
import Idealize.ShloMosaic.PureOps.Ideal
import Idealize.ShloMosaic.Lib.ValueIdx

noncomputable section

open scoped BigOperators

namespace Cert.Sage

open Idealize.ShloMosaic Idealize.ShloMosaic.ValueIdx

/-- A two-axis array of extended reals. -/
abbrev Mat (a b : ℕ) : Type := (⟨2, ![a, b]⟩ : Shape).Idx → EReal

variable {M K N : ℕ}

/-- The layer before its activation, at entry `i = (r, q)`. -/
def lin (agg : Mat M K) (rc : Mat M 1) (h : Mat M K) (Wl Wr : Mat K N) (b : Mat 1 N) : Mat M N := fun i =>
  ((∑ k : Fin K, (agg (ix2 (i 0) k) * rc (ix2 (i 0) (0 : Fin 1))) * Wl (ix2 k (i 1)))
    + ∑ k : Fin K, h (ix2 (i 0) k) * Wr (ix2 k (i 1)))
  + b (ix2 (0 : Fin 1) (i 1))

/-- ELU of one extended real: the argument where it is positive, `e^x − 1` elsewhere (the zero and the one
    are the binary words the programs write). -/
def elu1 (x : EReal) : EReal :=
  Scalar.select (FloatOps.cmpf (F := Ideal) (φ := .f32) .ogt x (Ideal.ofBits .f32 0x00000000#32)) x
    (FloatOps.subf (F := Ideal) (φ := .f32) (FloatOps.exp (F := Ideal) (φ := .f32) x) (Ideal.ofBits .f32 0x3F800000#32))

/-- A hidden layer: the linear part through ELU. -/
def eluLin (agg : Mat M K) (rc : Mat M 1) (h : Mat M K) (Wl Wr : Mat K N) (b : Mat 1 N) : Mat M N := fun i =>
  elu1 (lin agg rc h Wl Wr b i)

/-- An entry of the layer depends on its arrays only along that entry's row and column: two families of arrays
    that agree there give the same entry. -/
theorem lin_congr {M' : ℕ} (agg : Mat M K) (rc : Mat M 1) (h : Mat M K) (Wl Wr : Mat K N) (b : Mat 1 N)
    (agg' : Mat M' K) (rc' : Mat M' 1) (h' : Mat M' K) (Wl' Wr' : Mat K N) (b' : Mat 1 N)
    (i : (⟨2, ![M, N]⟩ : Shape).Idx) (i' : (⟨2, ![M', N]⟩ : Shape).Idx)
    (hagg : ∀ k, agg' (ix2 (i' 0) k) = agg (ix2 (i 0) k)) (hrc : rc' (ix2 (i' 0) (0 : Fin 1)) = rc (ix2 (i 0) (0 : Fin 1)))
    (hh : ∀ k, h' (ix2 (i' 0) k) = h (ix2 (i 0) k)) (hWl : ∀ k, Wl' (ix2 k (i' 1)) = Wl (ix2 k (i 1)))
    (hWr : ∀ k, Wr' (ix2 k (i' 1)) = Wr (ix2 k (i 1))) (hb : b' (ix2 (0 : Fin 1) (i' 1)) = b (ix2 (0 : Fin 1) (i 1))) :
    lin agg' rc' h' Wl' Wr' b' i' = lin agg rc h Wl Wr b i := by
  unfold lin
  simp only [hagg, hrc, hh, hWl, hWr, hb]

end Cert.Sage

end
-- ==== Proof.KSpec.lean ====
/-
  The kernel program's host side as named terms, and its result as three layers.

  From the edge list: row 0 is each edge's source node, row 1 its destination. `agg h` sums, per destination
  node, the rows of `h` at the edges' sources (a negative source counted from the end); `cnt` counts the edges
  into each node; `rc` is the reciprocal of that count, at least one, as a column. The program computes `rc` once
  and, layer by layer, the neighbour sums of the previous layer's result; each layer is the formula of
  `Cert.Sage.lin` on those, the hidden ones through ELU.
-/
import proofs.«154999_j35115652612101_1_alg».proof.KernelIdeal
import proofs.«154999_j35115652612101_1_alg».proof.Proof.Spec

noncomputable section

namespace Cert.Sage.K

open Cert.KernelIdeal Cert.KernelIdeal.Facts₀ Idealize.ShloMosaic

section
variable {F : FTy → Type} [FloatOps F] [Cert.KernelIdeal.Facts]

/-- Each edge's source node. -/
def src (ei : IVec S2x800000 32) : IVec S800000 32 :=
  shapeCast S800000 (extractStridedSlice S1x800000 ![0, 0] ei slices_S2x800000_S1x800000_0_0) shapeCasts_S1x800000_S800000

/-- Each edge's destination node. -/
def dst (ei : IVec S2x800000 32) : IVec S800000 32 :=
  shapeCast S800000 (extractStridedSlice S1x800000 ![1, 0] ei slices_S2x800000_S1x800000_1_0) shapeCasts_S1x800000_S800000

/-- The source with a negative index counted from the end. -/
def wrapped (ei : IVec S2x800000 32) : IVec S800000 32 :=
  select (cmpi .slt (src ei) (broadcastInDim S800000 ![] bcast_S_S800000 (constantI S_ 32 0#32)))
    (addi (src ei) (broadcastInDim S800000 ![] bcast_S_S800000 (constantI S_ 32 50000#32))) (src ei)

/-- Per destination node, the sum of the source rows of `h`. -/
def agg (h : FVec F S50000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst ei))
    (Host.gather gather_S50000x128_S800000x1_S800000x128_1_0_n_n_0_1_1128 h
      (broadcastInDim S800000x1 ![0] bcast_S800000_S800000x1_0 (wrapped ei)))

/-- The number of edges into each node. -/
def cnt (ei : IVec S2x800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dst ei))
    (broadcastInDim S800000 ![] bcast_S_S800000 (constant S_ .f32 0x3F800000#32))

/-- One over the count, the count taken as at least one: a column, one entry per node. -/
def rc (ei : IVec S2x800000 32) : FVec F S50000x1 .f32 :=
  shapeCast S50000x1
    (Host.divf (broadcastInDim S50000 ![] bcast_S_S50000 (constant S_ .f32 0x3F800000#32))
      (maximumf (cnt (F := F) ei) (broadcastInDim S50000 ![] bcast_S_S50000 (constant S_ .f32 0x3F800000#32))))
    shapeCasts_S50000_S50000x1

/-- A bias vector as a one-row array. -/
def row128 (b : FVec F S128 .f32) : FVec F S1x128 .f32 := shapeCast S1x128 b shapeCasts_S128_S1x128
def row64 (b : FVec F S64 .f32) : FVec F S1x64 .f32 := shapeCast S1x64 b shapeCasts_S64_S1x64

end

variable [Cert.KernelIdeal.Facts]

/-- A hidden layer of the kernel program on the extended reals. -/
def hidden (h : FVec Ideal S50000x128 .f32) (ei : IVec S2x800000 32) (Wl Wr : FVec Ideal S128x128 .f32) (b : FVec Ideal S128 .f32) :
    FVec Ideal S50000x128 .f32 :=
  Cert.Sage.eluLin (agg (F := Ideal) h ei) (rc (F := Ideal) ei) h Wl Wr (row128 (F := Ideal) b)

/-- The last layer. -/
def last (h : FVec Ideal S50000x128 .f32) (ei : IVec S2x800000 32) (Wl Wr : FVec Ideal S128x64 .f32) (b : FVec Ideal S64 .f32) :
    FVec Ideal S50000x64 .f32 :=
  Cert.Sage.lin (agg (F := Ideal) h ei) (rc (F := Ideal) ei) h Wl Wr (row64 (F := Ideal) b)

/-- The kernel program's result from its eleven arguments. -/
def out (x : FVec Ideal S50000x128 .f32) (ei : IVec S2x800000 32)
    (Wl0 Wr0 : FVec Ideal S128x128 .f32) (b0 : FVec Ideal S128 .f32)
    (Wl1 Wr1 : FVec Ideal S128x128 .f32) (b1 : FVec Ideal S128 .f32)
    (Wl2 Wr2 : FVec Ideal S128x64 .f32) (b2 : FVec Ideal S64 .f32) : FVec Ideal S50000x64 .f32 :=
  last (hidden (hidden x ei Wl0 Wr0 b0) ei Wl1 Wr1 b1) ei Wl2 Wr2 b2

end Cert.Sage.K

end
-- ==== Proof.RefSpec.lean ====
/-
  The reference's three layers as named host terms.

  From the edge list: row 0 is each edge's source node, row 1 its destination. `agg h` sums, per destination
  node, the rows of `h` at the edges' sources (a negative source counted from the end); `cnt` counts the edges
  into each node; `denom` is that count, at least one, laid across the features. A layer divides the sums by
  the counts, multiplies by the neighbour weights, adds the node's own features times the self weights, and
  adds the bias; the hidden layers pass the result through ELU, written as the reference writes it:
  `x` where `x > 0`, and `1 · (e^y − 1)` elsewhere with `y` the argument where it is not positive and zero where it is.
-/
import proofs.«154999_j35115652612101_1_alg».proof.ReferenceIdeal

noncomputable section

namespace Cert.Sage.Ref

open Cert.ReferenceIdeal Cert.ReferenceIdeal.Facts₀ Idealize.ShloMosaic

variable {F : FTy → Type} [FloatOps F] [Cert.ReferenceIdeal.Facts]

/-- Each edge's source node. -/
def src (ei : IVec S2x800000 32) : IVec S800000 32 :=
  shapeCast S800000 (extractStridedSlice S1x800000 ![0, 0] ei slices_S2x800000_S1x800000_0_0) shapeCasts_S1x800000_S800000

/-- Each edge's destination node. -/
def dst (ei : IVec S2x800000 32) : IVec S800000 32 :=
  shapeCast S800000 (extractStridedSlice S1x800000 ![1, 0] ei slices_S2x800000_S1x800000_1_0) shapeCasts_S1x800000_S800000

/-- The source with a negative index counted from the end. -/
def wrapped (ei : IVec S2x800000 32) : IVec S800000 32 :=
  select (cmpi .slt (src ei) (broadcastInDim S800000 ![] bcast_S_S800000 (constantI S_ 32 0#32)))
    (addi (src ei) (broadcastInDim S800000 ![] bcast_S_S800000 (constantI S_ 32 50000#32))) (src ei)

/-- Per destination node, the sum of the source rows of `h`. -/
def agg (h : FVec F S50000x128 .f32) (ei : IVec S2x800000 32) : FVec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst ei))
    (Host.gather gather_S50000x128_S800000x1_S800000x128_1_0_n_n_0_1_1128 h
      (broadcastInDim S800000x1 ![0] bcast_S800000_S800000x1_0 (wrapped ei)))

/-- The number of edges into each node. -/
def cnt (ei : IVec S2x800000 32) : FVec F S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 (dst ei))
    (broadcastInDim S800000 ![] bcast_S_S800000 (constant S_ .f32 0x3F800000#32))

/-- The count, at least one, laid across the 128 features. -/
def denom (ei : IVec S2x800000 32) : FVec F S50000x128 .f32 :=
  broadcastInDim S50000x128 ![0, 1] bcast_S50000x1_S50000x128_0_1
    (broadcastInDim S50000x1 ![0] bcast_S50000_S50000x1_0
      (maximumf (cnt (F := F) ei) (broadcastInDim S50000 ![] bcast_S_S50000 (constant S_ .f32 0x3F800000#32))))

/-- A layer of 128 outputs before its activation. -/
def lin128 (h : FVec F S50000x128 .f32) (ei : IVec S2x800000 32) (Wl Wr : FVec F S128x128 .f32) (b : FVec F S128 .f32) :
    FVec F S50000x128 .f32 :=
  addf (addf (Host.dotGeneral dot_S50000x128_S128x128_S50000x128_1_0_0_1_n_n none (Host.divf (agg h ei) (denom ei)) Wl)
      (Host.dotGeneral dot_S50000x128_S128x128_S50000x128_1_0_0_1_n_n none h Wr))
    (broadcastInDim S50000x128 ![0, 1] bcast_S1x128_S50000x128_0_1 (broadcastInDim S1x128 ![1] bcast_S128_S1x128_1 b))

/-- The last layer, of 64 outputs. -/
def lin64 (h : FVec F S50000x128 .f32) (ei : IVec S2x800000 32) (Wl Wr : FVec F S128x64 .f32) (b : FVec F S64 .f32) :
    FVec F S50000x64 .f32 :=
  addf (addf (Host.dotGeneral dot_S50000x128_S128x64_S50000x64_1_0_0_1_n_n none (Host.divf (agg h ei) (denom ei)) Wl)
      (Host.dotGeneral dot_S50000x128_S128x64_S50000x64_1_0_0_1_n_n none h Wr))
    (broadcastInDim S50000x64 ![0, 1] bcast_S1x64_S50000x64_0_1 (broadcastInDim S1x64 ![1] bcast_S64_S1x64_1 b))

/-- ELU as the reference writes it. -/
def elu (p : FVec F S50000x128 .f32) : FVec F S50000x128 .f32 :=
  select (cmpf .ogt p (broadcastInDim S50000x128 ![] bcast_S_S50000x128 (constant S_ .f32 0x00000000#32))) p
    (mulf (broadcastInDim S50000x128 ![] bcast_S_S50000x128 (constant S_ .f32 0x3F800000#32))
      (Host.expm1 (select (cmpf .ogt p (broadcastInDim S50000x128 ![] bcast_S_S50000x128 (constant S_ .f32 0x00000000#32)))
        (broadcastInDim S50000x128 ![] bcast_S_S50000x128 (id (constant S_ .f32 0x00000000#32))) p)))

/-- The reference's result from its eleven arguments. -/
def out (x : FVec F S50000x128 .f32) (ei : IVec S2x800000 32)
    (Wl0 Wr0 : FVec F S128x128 .f32) (b0 : FVec F S128 .f32)
    (Wl1 Wr1 : FVec F S128x128 .f32) (b1 : FVec F S128 .f32)
    (Wl2 Wr2 : FVec F S128x64 .f32) (b2 : FVec F S64 .f32) : FVec F S50000x64 .f32 :=
  lin64 (elu (lin128 (elu (lin128 x ei Wl0 Wr0 b0)) ei Wl1 Wr1 b1)) ei Wl2 Wr2 b2

end Cert.Sage.Ref

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.Bridge.lean ====
/-
  The kernel program's three layers are the reference's.

  Both programs sum the neighbours' rows and count the in-edges with the same host operations on the same
  operands, so those arrays are equal as they stand. They differ in three spellings, none of which changes a
  value on the extended reals:
  * the mean: the reference divides each sum by the count (taken as at least one); the kernel multiplies by the
    reciprocal of that count. A count that is at least one is not zero, and off zero `a / c = a · c⁻¹ = a · (1 / c)`,
    at the infinities too;
  * the products: a host product and a matrix-unit product into a zero accumulator are both the sum over the 128
    contracted positions;
  * ELU: where the argument is not positive the reference computes `1 · (e^y − 1)` with `y` the argument itself, the
    kernel `e^x − 1`; where it is positive both return it.
-/
import proofs.«154999_j35115652612101_1_alg».proof.Proof.KSpec
import proofs.«154999_j35115652612101_1_alg».proof.Proof.RefSpec
import proofs.«154999_j35115652612101_1_alg».proof.Proof.LibPlainDot
import proofs.«154999_j35115652612101_1_alg».proof.Proof.LibKeepdims
import Idealize.ShloMosaic.Lib.ValueLayout
import Idealize.ShloMosaic.Lib.Pipeline.Value
import Idealize.ShloMosaic.PureOps.Ideal.Laws

set_option maxRecDepth 16384

noncomputable section

open scoped BigOperators

namespace Cert.Sage.Bridge

open Idealize.ShloMosaic Idealize.ShloMosaic.ValueIdx

/-! ## Scalars -/

/-- The unit word is the real number one. -/
theorem ofBits_one : Ideal.ofBits .f32 0x3F800000#32 = 1 := by
  simp [Ideal.ofBits, Ideal.ieee, -EReal.coe_mul]; norm_num

/-- Off zero, a quotient is the product with the reciprocal. -/
theorem div_eq_mul_one_div (a c : EReal) (hc : c ≠ 0) :
    Ideal.div a c = a * Ideal.div (Ideal.ofBits .f32 0x3F800000#32) c := by
  rw [ofBits_one]
  unfold Ideal.div
  rw [if_neg hc, if_neg hc, one_mul]

/-- A count taken as at least one is not zero. -/
theorem max_one_ne_zero (c : EReal) : max c (Ideal.ofBits .f32 0x3F800000#32) ≠ 0 := by
  rw [ofBits_one]
  exact ne_of_gt (lt_of_lt_of_le zero_lt_one (le_max_right c 1))

/-- ELU in the reference's spelling is ELU in the kernel's. -/
theorem elu_law (y : EReal) :
    Scalar.select (FloatOps.cmpf (F := Ideal) (φ := .f32) .ogt y (Ideal.ofBits .f32 0x00000000#32)) y
      (FloatOps.mulf (F := Ideal) (φ := .f32) (Ideal.ofBits .f32 0x3F800000#32)
        (FloatOps.hostUnary (F := Ideal) (φ := .f32) .expm1
          (Scalar.select (FloatOps.cmpf (F := Ideal) (φ := .f32) .ogt y (Ideal.ofBits .f32 0x00000000#32))
            (id (Ideal.ofBits .f32 0x00000000#32)) y)))
      = Cert.Sage.elu1 y := by
  unfold Cert.Sage.elu1 Scalar.select
  by_cases h : FloatOps.cmpf (F := Ideal) (φ := .f32) .ogt y (Ideal.ofBits .f32 0x00000000#32) = 1
  · rw [if_pos h, if_pos h]
  · rw [if_neg h, if_neg h, if_neg h]
    show Ideal.ofBits .f32 0x3F800000#32 * (Ideal.exp y - 1) = Ideal.exp y - Ideal.ofBits .f32 0x3F800000#32
    rw [ofBits_one, one_mul]

/-! ## One layer, at an entry -/

/-- A layer in the reference's spelling — the quotient of the sums by the denominators times the neighbour
    weights, plus the own features times the self weights, plus a bias array — is the layer formula with the
    column of reciprocals, wherever the denominators along the row are not zero, the column holds their
    reciprocal, and the bias array holds the bias row. -/
theorem lin_core {N : ℕ} (d : DotDims ⟨2, ![50000, 128]⟩ ⟨2, ![128, N]⟩ ⟨2, ![50000, N]⟩) (hd : d = DotDims.plain 50000 128 N)
    (A D H : FVec Ideal ⟨2, ![50000, 128]⟩ .f32) (Wl Wr : FVec Ideal ⟨2, ![128, N]⟩ .f32) (B : FVec Ideal ⟨2, ![50000, N]⟩ .f32)
    (rc : Cert.Sage.Mat 50000 1) (b : Cert.Sage.Mat 1 N) (p : Fin 50000) (q : Fin N)
    (hD : ∀ k : Fin 128, D (ix2 p k) ≠ 0)
    (hrc : ∀ k : Fin 128, rc (ix2 p (0 : Fin 1)) = Ideal.div (Ideal.ofBits .f32 0x3F800000#32) (D (ix2 p k)))
    (hB : B (ix2 p q) = b (ix2 (0 : Fin 1) q)) :
    addf (addf (Host.dotGeneral d none (Host.divf A D) Wl) (Host.dotGeneral d none H Wr)) B (ix2 p q)
      = Cert.Sage.lin A rc H Wl Wr b (ix2 p q) := by
  unfold Cert.Sage.lin
  show (Host.dotGeneral d none (Host.divf A D) Wl (ix2 p q) + Host.dotGeneral d none H Wr (ix2 p q)) + B (ix2 p q) = _
  rw [hB]
  refine congrArg₂ (· + ·) (congrArg₂ (· + ·) ?_ ?_) rfl
  · refine (Cert.PlainDot.dotGeneral_apply d hd none _ (Host.divf A D) Wl (ix2 p q)).trans ?_
    refine Finset.sum_congr rfl fun k _ => ?_
    show Ideal.div (A (ix2 p k)) (D (ix2 p k)) * Wl (ix2 k q) = (A (ix2 p k) * rc (ix2 p (0 : Fin 1))) * Wl (ix2 k q)
    rw [hrc k, div_eq_mul_one_div _ _ (hD k)]
  · exact Cert.PlainDot.dotGeneral_apply d hd none _ H Wr (ix2 p q)

/-! ## The two programs' host terms -/

section Terms

open Cert.Sage

variable [Cert.KernelIdeal.Facts] [Cert.ReferenceIdeal.Facts] (ei : IVec Cert.KernelIdeal.S2x800000 32)

/-- The neighbour sums are one array: the same operations on the same operands. -/
theorem agg_eq (h : FVec Ideal Cert.KernelIdeal.S50000x128 .f32) : K.agg (F := Ideal) h ei = Ref.agg (F := Ideal) h ei := rfl

/-- So are the in-edge counts. -/
theorem cnt_eq : K.cnt (F := Ideal) ei = Ref.cnt (F := Ideal) ei := rfl

/-- A count, at least one, laid across the features, read at `(p, k)`: node `p`'s count, at least one. Stated for any
    array of counts. -/
theorem denomOf_at (C : FVec Ideal Cert.ReferenceIdeal.S50000 .f32) (p : Fin 50000) (k : Fin 128) :
    broadcastInDim Cert.ReferenceIdeal.S50000x128 ![0, 1] Cert.ReferenceIdeal.Facts₀.bcast_S50000x1_S50000x128_0_1
      (broadcastInDim Cert.ReferenceIdeal.S50000x1 ![0] Cert.ReferenceIdeal.Facts₀.bcast_S50000_S50000x1_0
        (maximumf C (broadcastInDim Cert.ReferenceIdeal.S50000 ![] Cert.ReferenceIdeal.Facts₀.bcast_S_S50000
          (constant (F := Ideal) Cert.ReferenceIdeal.S_ .f32 0x3F800000#32)))) (ix2 p k)
      = max (C (ix1 p)) (Ideal.ofBits .f32 0x3F800000#32) := by
  refine (broadcastInDim_apply ![0, 1] _ _ (ix2 p k) (ix2 p (0 : Fin 1)) fun a => ?_).trans ?_
  · match a with
    | ⟨0, _⟩ => rfl
    | ⟨1, _⟩ => rfl
  · refine (broadcastInDim_apply ![0] _ _ (ix2 p (0 : Fin 1)) (ix1 p) fun a => ?_).trans ?_
    · match a with
      | ⟨0, _⟩ => rfl
    · rfl

/-- The reference's denominator at `(p, k)`: node `p`'s count, at least one. -/
theorem denom_at (p : Fin 50000) (k : Fin 128) :
    Ref.denom (F := Ideal) ei (ix2 p k) = max (Ref.cnt (F := Ideal) ei (ix1 p)) (Ideal.ofBits .f32 0x3F800000#32) := by
  unfold Ref.denom
  exact denomOf_at (Ref.cnt (F := Ideal) ei) p k

/-- One over a count taken as at least one, as a column, read at node `p`. Stated for any array of counts. -/
theorem rcOf_at (C : FVec Ideal Cert.KernelIdeal.S50000 .f32) (p : Fin 50000) :
    shapeCast Cert.KernelIdeal.S50000x1
      (Host.divf (broadcastInDim Cert.KernelIdeal.S50000 ![] Cert.KernelIdeal.Facts₀.bcast_S_S50000 (constant (F := Ideal) Cert.KernelIdeal.S_ .f32 0x3F800000#32))
        (maximumf C (broadcastInDim Cert.KernelIdeal.S50000 ![] Cert.KernelIdeal.Facts₀.bcast_S_S50000 (constant (F := Ideal) Cert.KernelIdeal.S_ .f32 0x3F800000#32))))
      Cert.KernelIdeal.Facts₀.shapeCasts_S50000_S50000x1 (ix2 p (0 : Fin 1))
      = Ideal.div (Ideal.ofBits .f32 0x3F800000#32) (max (C (ix1 p)) (Ideal.ofBits .f32 0x3F800000#32)) :=
  (Cert.Keepdims.shapeCast_a_a1_apply _ _ p (0 : Fin 1)).trans rfl

/-- The kernel's column at node `p`: one over that count. -/
theorem rc_at (p : Fin 50000) :
    K.rc (F := Ideal) ei (ix2 p (0 : Fin 1))
      = Ideal.div (Ideal.ofBits .f32 0x3F800000#32) (max (K.cnt (F := Ideal) ei (ix1 p)) (Ideal.ofBits .f32 0x3F800000#32)) := by
  unfold K.rc
  exact rcOf_at (K.cnt (F := Ideal) ei) p

/-- The kernel's bias row at column `q`. -/
theorem row128_at (b : FVec Ideal Cert.KernelIdeal.S128 .f32) (q : Fin 128) :
    K.row128 (F := Ideal) b (ix2 (0 : Fin 1) q) = b (ix1 q) := by
  unfold K.row128
  exact shapeCast_a_1a_apply _ _ _ _

theorem row64_at (b : FVec Ideal Cert.KernelIdeal.S64 .f32) (q : Fin 64) :
    K.row64 (F := Ideal) b (ix2 (0 : Fin 1) q) = b (ix1 q) := by
  unfold K.row64
  exact shapeCast_a_1a_apply _ _ _ _

/-- The reference's bias array at `(p, q)`: the bias at `q`. -/
theorem bias128_at (b : FVec Ideal Cert.ReferenceIdeal.S128 .f32) (p : Fin 50000) (q : Fin 128) :
    broadcastInDim Cert.ReferenceIdeal.S50000x128 ![0, 1] Cert.ReferenceIdeal.Facts₀.bcast_S1x128_S50000x128_0_1
      (broadcastInDim Cert.ReferenceIdeal.S1x128 ![1] Cert.ReferenceIdeal.Facts₀.bcast_S128_S1x128_1 b) (ix2 p q) = b (ix1 q) := by
  refine (broadcastInDim_apply ![0, 1] _ _ (ix2 p q) (ix2 (0 : Fin 1) q) fun a => ?_).trans ?_
  · match a with
    | ⟨0, _⟩ => rfl
    | ⟨1, _⟩ => rfl
  · refine broadcastInDim_apply ![1] _ _ (ix2 (0 : Fin 1) q) (ix1 q) fun a => ?_
    match a with
    | ⟨0, _⟩ => rfl

theorem bias64_at (b : FVec Ideal Cert.ReferenceIdeal.S64 .f32) (p : Fin 50000) (q : Fin 64) :
    broadcastInDim Cert.ReferenceIdeal.S50000x64 ![0, 1] Cert.ReferenceIdeal.Facts₀.bcast_S1x64_S50000x64_0_1
      (broadcastInDim Cert.ReferenceIdeal.S1x64 ![1] Cert.ReferenceIdeal.Facts₀.bcast_S64_S1x64_1 b) (ix2 p q) = b (ix1 q) := by
  refine (broadcastInDim_apply ![0, 1] _ _ (ix2 p q) (ix2 (0 : Fin 1) q) fun a => ?_).trans ?_
  · match a with
    | ⟨0, _⟩ => rfl
    | ⟨1, _⟩ => rfl
  · refine broadcastInDim_apply ![1] _ _ (ix2 (0 : Fin 1) q) (ix1 q) fun a => ?_
    match a with
    | ⟨0, _⟩ => rfl

/-- The reference's ELU of an array, at an entry, is the scalar ELU of that entry. -/
theorem elu_at (P : FVec Ideal Cert.ReferenceIdeal.S50000x128 .f32) (i : Cert.ReferenceIdeal.S50000x128.Idx) :
    Ref.elu (F := Ideal) P i = Cert.Sage.elu1 (P i) :=
  Eq.trans rfl (elu_law (P i))

/-- A hidden layer of the kernel program is the reference's. -/
theorem hidden_eq (h : FVec Ideal Cert.KernelIdeal.S50000x128 .f32) (Wl Wr : FVec Ideal Cert.KernelIdeal.S128x128 .f32)
    (b : FVec Ideal Cert.KernelIdeal.S128 .f32) :
    K.hidden h ei Wl Wr b = Ref.elu (F := Ideal) (Ref.lin128 (F := Ideal) h ei Wl Wr b) := by
  funext i
  obtain ⟨p, q, rfl⟩ : ∃ (p : Fin 50000) (q : Fin 128), i = ix2 p q := ⟨i 0, i 1, eq_ix2 i⟩
  refine Eq.symm ((elu_at _ (ix2 p q)).trans ?_)
  unfold K.hidden Cert.Sage.eluLin
  refine congrArg Cert.Sage.elu1 ?_
  unfold Ref.lin128
  rw [agg_eq]
  refine lin_core _ rfl _ _ _ _ _ _ _ _ p q (fun k => ?_) (fun k => ?_) ?_
  · rw [denom_at]; exact max_one_ne_zero _
  · rw [denom_at, rc_at, cnt_eq]
  · rw [row128_at]; exact bias128_at b p q

/-- The last layer likewise. -/
theorem last_eq (h : FVec Ideal Cert.KernelIdeal.S50000x128 .f32) (Wl Wr : FVec Ideal Cert.KernelIdeal.S128x64 .f32)
    (b : FVec Ideal Cert.KernelIdeal.S64 .f32) :
    K.last h ei Wl Wr b = Ref.lin64 (F := Ideal) h ei Wl Wr b := by
  funext i
  obtain ⟨p, q, rfl⟩ : ∃ (p : Fin 50000) (q : Fin 64), i = ix2 p q := ⟨i 0, i 1, eq_ix2 i⟩
  refine Eq.symm ?_
  unfold K.last Ref.lin64
  rw [agg_eq]
  refine lin_core _ rfl _ _ _ _ _ _ _ _ p q (fun k => ?_) (fun k => ?_) ?_
  · rw [denom_at]; exact max_one_ne_zero _
  · rw [denom_at, rc_at, cnt_eq]
  · rw [row64_at]; exact bias64_at b p q

/-- The two programs compute one function of their eleven arguments. -/
theorem out_eq (x : FVec Ideal Cert.KernelIdeal.S50000x128 .f32)
    (Wl0 Wr0 : FVec Ideal Cert.KernelIdeal.S128x128 .f32) (b0 : FVec Ideal Cert.KernelIdeal.S128 .f32)
    (Wl1 Wr1 : FVec Ideal Cert.KernelIdeal.S128x128 .f32) (b1 : FVec Ideal Cert.KernelIdeal.S128 .f32)
    (Wl2 Wr2 : FVec Ideal Cert.KernelIdeal.S128x64 .f32) (b2 : FVec Ideal Cert.KernelIdeal.S64 .f32) :
    K.out x ei Wl0 Wr0 b0 Wl1 Wr1 b1 Wl2 Wr2 b2 = Ref.out (F := Ideal) x ei Wl0 Wr0 b0 Wl1 Wr1 b1 Wl2 Wr2 b2 := by
  unfold K.out Ref.out
  rw [hidden_eq, hidden_eq, last_eq]

end Terms

end Cert.Sage.Bridge

end
-- ==== Proof.Payload.lean ====
/-
  What one grid point's body stores, as the layer formula on its blocks.

  The body multiplies the block of neighbour sums by the block of reciprocal degrees (a column laid across the
  features), rounds both factors of each product to a narrower format (the identity on the extended reals),
  takes the two matrix products into a zero accumulator, adds them and the bias row, and (in the hidden layers)
  applies ELU. Entry `(r, q)` of the stored block is therefore the layer formula of the blocks it loaded: each
  product into zero is the sum over the 128 contracted positions, the column's entry in row `r` multiplies every
  feature of that row, and the bias row is read at column `q`.
-/
import proofs.«154999_j35115652612101_1_alg».proof.Proof.Gen.KernelIdeal.Skeleton
import proofs.«154999_j35115652612101_1_alg».proof.Proof.Spec
import proofs.«154999_j35115652612101_1_alg».proof.Proof.LibPlainDot
import proofs.«154999_j35115652612101_1_alg».proof.Proof.LibKeepdims
import Idealize.ShloMosaic.Lib.ValueLayout
import Idealize.ShloMosaic.Lib.Pipeline.Value

noncomputable section

open scoped BigOperators

namespace Cert.Sage.Payload

open Cert.KernelIdeal Cert.KernelIdeal.Gen Idealize.ShloMosaic Idealize.ShloMosaic.ValueIdx

/-- The first hidden layer's stored block. -/
theorem pay0 (v0 : Vec Ideal S2000x128 .f32) (v2 : Vec Ideal S2000x1 .f32) (v7 : Vec Ideal S2000x128 .f32)
    (vl vr : Vec Ideal S128x128 .f32) (vb : Vec Ideal S1x128 .f32) :
    k0_pay1 (F := Ideal) v0 v2 v7 vl vr vb = Cert.Sage.eluLin v0 v2 v7 vl vr vb := by
  funext j
  obtain ⟨p, q, rfl⟩ : ∃ (p : Fin 2000) (q : Fin 128), j = ix2 p q := ⟨j 0, j 1, eq_ix2 j⟩
  unfold k0_pay1
  show Cert.Sage.elu1 _ = Cert.Sage.elu1 _
  refine congrArg Cert.Sage.elu1 ?_
  unfold Cert.Sage.lin
  refine congrArg₂ (· + ·) (congrArg₂ (· + ·) ?_ ?_) ?_
  · refine (Cert.PlainDot.matmul_zero_apply dot_S2000x128_S128x128_S2000x128_1_0_0_1_n_n rfl none _ _ (ix2 p q)).trans ?_
    refine Finset.sum_congr rfl fun k _ => ?_
    show (shapeCast S2000x128 v0 shapeCasts_S2000x128_S2000x128 (ix2 p k)
        * broadcastTo S2000x128 (shapeCast S2000x1 v2 shapeCasts_S2000x1_S2000x1) broadcasts_S2000x1_S2000x128 (ix2 p k)) * vl (ix2 k q) = _
    rw [shapeCast_self, shapeCast_self, Cert.Keepdims.broadcastTo_a1_ab_apply]
  · refine (Cert.PlainDot.matmul_zero_apply dot_S2000x128_S128x128_S2000x128_1_0_0_1_n_n rfl none _ _ (ix2 p q)).trans ?_
    rfl
  · show broadcastTo S2000x128 (shapeCast S1x128 vb shapeCasts_S1x128_S1x128) broadcasts_S1x128_S2000x128 (ix2 p q) = vb (ix2 (0 : Fin 1) q)
    rw [shapeCast_self, broadcastTo_1b_ab_apply]

/-- The second hidden layer's stored block. -/
theorem pay1 (v0 : Vec Ideal S2000x128 .f32) (v2 : Vec Ideal S2000x1 .f32) (v7 : Vec Ideal S2000x128 .f32)
    (vl vr : Vec Ideal S128x128 .f32) (vb : Vec Ideal S1x128 .f32) :
    k1_pay1 (F := Ideal) v0 v2 v7 vl vr vb = Cert.Sage.eluLin v0 v2 v7 vl vr vb := by
  funext j
  obtain ⟨p, q, rfl⟩ : ∃ (p : Fin 2000) (q : Fin 128), j = ix2 p q := ⟨j 0, j 1, eq_ix2 j⟩
  unfold k1_pay1
  show Cert.Sage.elu1 _ = Cert.Sage.elu1 _
  refine congrArg Cert.Sage.elu1 ?_
  unfold Cert.Sage.lin
  refine congrArg₂ (· + ·) (congrArg₂ (· + ·) ?_ ?_) ?_
  · refine (Cert.PlainDot.matmul_zero_apply dot_S2000x128_S128x128_S2000x128_1_0_0_1_n_n rfl none _ _ (ix2 p q)).trans ?_
    refine Finset.sum_congr rfl fun k _ => ?_
    show (shapeCast S2000x128 v0 shapeCasts_S2000x128_S2000x128 (ix2 p k)
        * broadcastTo S2000x128 (shapeCast S2000x1 v2 shapeCasts_S2000x1_S2000x1) broadcasts_S2000x1_S2000x128 (ix2 p k)) * vl (ix2 k q) = _
    rw [shapeCast_self, shapeCast_self, Cert.Keepdims.broadcastTo_a1_ab_apply]
  · refine (Cert.PlainDot.matmul_zero_apply dot_S2000x128_S128x128_S2000x128_1_0_0_1_n_n rfl none _ _ (ix2 p q)).trans ?_
    refine Finset.sum_congr rfl fun k _ => ?_
    show shapeCast S2000x128 v7 shapeCasts_S2000x128_S2000x128 (ix2 p k) * vr (ix2 k q) = _
    rw [shapeCast_self]
  · show broadcastTo S2000x128 (shapeCast S1x128 vb shapeCasts_S1x128_S1x128) broadcasts_S1x128_S2000x128 (ix2 p q) = vb (ix2 (0 : Fin 1) q)
    rw [shapeCast_self, broadcastTo_1b_ab_apply]

/-- The last layer's stored block: no activation. -/
theorem pay2 (v0 : Vec Ideal S2000x128 .f32) (v2 : Vec Ideal S2000x1 .f32) (v7 : Vec Ideal S2000x128 .f32)
    (vl vr : Vec Ideal S128x64 .f32) (vb : Vec Ideal S1x64 .f32) :
    k2_pay1 (F := Ideal) v0 v2 v7 vl vr vb = Cert.Sage.lin v0 v2 v7 vl vr vb := by
  funext j
  obtain ⟨p, q, rfl⟩ : ∃ (p : Fin 2000) (q : Fin 64), j = ix2 p q := ⟨j 0, j 1, eq_ix2 j⟩
  unfold k2_pay1
  unfold Cert.Sage.lin
  refine congrArg₂ (· + ·) (congrArg₂ (· + ·) ?_ ?_) ?_
  · refine (Cert.PlainDot.matmul_zero_apply dot_S2000x128_S128x64_S2000x64_1_0_0_1_n_n rfl none _ _ (ix2 p q)).trans ?_
    refine Finset.sum_congr rfl fun k _ => ?_
    show (shapeCast S2000x128 v0 shapeCasts_S2000x128_S2000x128 (ix2 p k)
        * broadcastTo S2000x128 (shapeCast S2000x1 v2 shapeCasts_S2000x1_S2000x1) broadcasts_S2000x1_S2000x128 (ix2 p k)) * vl (ix2 k q) = _
    rw [shapeCast_self, shapeCast_self, Cert.Keepdims.broadcastTo_a1_ab_apply]
  · refine (Cert.PlainDot.matmul_zero_apply dot_S2000x128_S128x64_S2000x64_1_0_0_1_n_n rfl none _ _ (ix2 p q)).trans ?_
    refine Finset.sum_congr rfl fun k _ => ?_
    show shapeCast S2000x128 v7 shapeCasts_S2000x128_S2000x128 (ix2 p k) * vr (ix2 k q) = _
    rw [shapeCast_self]
  · show broadcastTo S2000x64 (shapeCast S1x64 vb shapeCasts_S1x64_S1x64) broadcasts_S1x64_S2000x64 (ix2 p q) = vb (ix2 (0 : Fin 1) q)
    rw [shapeCast_self, broadcastTo_1b_ab_apply]

end Cert.Sage.Payload

end
-- ==== Proof.Region0.lean ====
/-
  Layer 0's result array after its grid has run.

  The grid has 25 points; point `t` loads rows `2000·t … 2000·t + 1999` of the neighbour sums, of the reciprocal
  degrees and of the nodes' own features, and the whole weight matrices and bias row, and writes back the same
  rows of the result. An entry of the layer formula depends on its arrays only along its own row and column, so
  what point `t` writes is rows `2000·t …` of the formula on the whole arrays; the 25 blocks cover all 50000 rows,
  so the array ends holding the formula everywhere.
-/
import proofs.«154999_j35115652612101_1_alg».proof.Proof.KernelIdealFrame
import proofs.«154999_j35115652612101_1_alg».proof.Proof.Payload

set_option maxRecDepth 16384

noncomputable section

namespace Cert.Sage.Region0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-tiled inputs and the output take block `t` of the rows, the
    weights and the bias their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 25 :=
  (by decide +kernel : ∀ t : Fin grid0.N, _)

/-- Every block of rows is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- The layer on the arrays as the region finds them. -/
abbrev G (c : Dev nD) : S50000x128.Idx → EReal :=
  Cert.Sage.eluLin (V c main_v22) (V c main_v12) (V c main_arg0) (V c main_arg2) (V c main_arg3) (V c main_v23)

/-- What point `t` writes back is rows `2000·t …` of the layer on the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x128) hz, View.ld_unit_zero (S := S1x128) hz]
  rw [Cert.Sage.Payload.pay0]
  obtain ⟨e00, e01, e10, e11, e20, e21, e30, e31, e40, e41, e50, e51, e60, e61, ht⟩ := idx_facts t
  funext j
  show Cert.Sage.eluLin (iblk0 V c 0 t) (iblk0 V c 1 t) (iblk0 V c 2 t) (iblk0 V c 3 t) (iblk0 V c 4 t) (iblk0 V c 5 t) j
    = Cert.Sage.eluLin (V c main_v22) (V c main_v12) (V c main_arg0) (V c main_arg2) (V c main_arg3) (V c main_v23) (((cfg0.win 6).blk t).view.emb j)
  have hj0 : (j 0).val < 2000 := (j 0).isLt
  have hj1 : (j 1).val < 128 := (j 1).isLt
  have o0 : ((((cfg0.win 6).blk t).view.emb j) 0).val = t.val * 2000 + (j 0).val := by
    show win0_6.index t (0 : Fin 2) * 2000 + 1 * (j 0).val = _; omega
  have o1 : ((((cfg0.win 6).blk t).view.emb j) 1).val = (j 1).val := by
    show win0_6.index t (1 : Fin 2) * 128 + 1 * (j 1).val = _; omega
  unfold Cert.Sage.eluLin
  refine congrArg Cert.Sage.elu1 ?_
  refine Cert.Sage.lin_congr _ _ _ _ _ _ _ _ _ _ _ _ _ _ (fun k => ?_) ?_ (fun k => ?_) (fun k => ?_) (fun k => ?_) ?_
  · show V c main_v22 (((cfg0.win 0).blk t).view.emb (ix2 (j 0) k)) = V c main_v22 _
    refine congrArg _ (funext fun a => Fin.ext ?_)
    match a with
    | ⟨0, _⟩ => show win0_0.index t (0 : Fin 2) * 2000 + 1 * (j 0).val = _; rw [o0]; omega
    | ⟨1, _⟩ => show win0_0.index t (1 : Fin 2) * 128 + 1 * k.val = k.val; omega
  · show V c main_v12 (((cfg0.win 1).blk t).view.emb (ix2 (j 0) (0 : Fin 1))) = V c main_v12 _
    refine congrArg _ (funext fun a => Fin.ext ?_)
    match a with
    | ⟨0, _⟩ => show win0_1.index t (0 : Fin 2) * 2000 + 1 * (j 0).val = _; rw [o0]; omega
    | ⟨1, _⟩ => show win0_1.index t (1 : Fin 2) * 1 + 1 * 0 = 0; omega
  · show V c main_arg0 (((cfg0.win 2).blk t).view.emb (ix2 (j 0) k)) = V c main_arg0 _
    refine congrArg _ (funext fun a => Fin.ext ?_)
    match a with
    | ⟨0, _⟩ => show win0_2.index t (0 : Fin 2) * 2000 + 1 * (j 0).val = _; rw [o0]; omega
    | ⟨1, _⟩ => show win0_2.index t (1 : Fin 2) * 128 + 1 * k.val = k.val; omega
  · show V c main_arg2 (((cfg0.win 3).blk t).view.emb (ix2 k (j 1))) = V c main_arg2 _
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = _; rw [o1]; omega
  · show V c main_arg3 (((cfg0.win 4).blk t).view.emb (ix2 k (j 1))) = V c main_arg3 _
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (j 1).val = _; rw [o1]; omega
  · show V c main_v23 (((cfg0.win 5).blk t).view.emb (ix2 (0 : Fin 1) (j 1))) = V c main_v23 _
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * (j 1).val = _; rw [o1]; omega

/-- An index of the result array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v24).slice (win0_6.rect t)).set ↔ _
  rw [View.set_slice_whole, Rect.mem_set_unit]
  exact Iff.rfl

/-- Every index of the result array is in some flushing point's block: row `r` in block `r / 2000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The result array after the grid has run is the layer on the arrays the region found. -/
theorem arr (c : Dev nD) : (dat0 V c).arrAt 6 cfg0.N = G V c :=
  (dat0 V c).arrAt_eq_of_cover 6 (G V c) (fun t _ => flushed_eq V c t) (cover)

end Cert.Sage.Region0

end
-- ==== Proof.Region1.lean ====
/-
  Layer 1's result array after its grid has run.

  The grid has 25 points; point `t` loads rows `2000·t … 2000·t + 1999` of the neighbour sums, of the reciprocal
  degrees and of the nodes' own features, and the whole weight matrices and bias row, and writes back the same
  rows of the result. An entry of the layer formula depends on its arrays only along its own row and column, so
  what point `t` writes is rows `2000·t …` of the formula on the whole arrays; the 25 blocks cover all 50000 rows,
  so the array ends holding the formula everywhere.
-/
import proofs.«154999_j35115652612101_1_alg».proof.Proof.KernelIdealFrame
import proofs.«154999_j35115652612101_1_alg».proof.Proof.Payload

set_option maxRecDepth 16384

noncomputable section

namespace Cert.Sage.Region1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-tiled inputs and the output take block `t` of the rows, the
    weights and the bias their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 25 :=
  (by decide +kernel : ∀ t : Fin grid1.N, _)

/-- Every block of rows is some point's. -/
theorem idx_onto : ∀ q0 : Fin 25, ∃ t : Fin cfg1.N, win1_6.index t = ![q0.val, 0] :=
  (by decide +kernel : ∀ q0 : Fin 25, ∃ t : Fin grid1.N, win1_6.index t = ![q0.val, 0])

/-- The layer on the arrays as the region finds them. -/
abbrev G (c : Dev nD) : S50000x128.Idx → EReal :=
  Cert.Sage.eluLin (V c main_v34) (V c main_v12) (V c main_v24) (V c main_arg5) (V c main_arg6) (V c main_v35)

/-- What point `t` writes back is rows `2000·t …` of the layer on the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x128) hz, View.ld_unit_zero (S := S1x128) hz]
  rw [Cert.Sage.Payload.pay1]
  obtain ⟨e00, e01, e10, e11, e20, e21, e30, e31, e40, e41, e50, e51, e60, e61, ht⟩ := idx_facts t
  funext j
  show Cert.Sage.eluLin (iblk1 V c 0 t) (iblk1 V c 1 t) (iblk1 V c 2 t) (iblk1 V c 3 t) (iblk1 V c 4 t) (iblk1 V c 5 t) j
    = Cert.Sage.eluLin (V c main_v34) (V c main_v12) (V c main_v24) (V c main_arg5) (V c main_arg6) (V c main_v35) (((cfg1.win 6).blk t).view.emb j)
  have hj0 : (j 0).val < 2000 := (j 0).isLt
  have hj1 : (j 1).val < 128 := (j 1).isLt
  have o0 : ((((cfg1.win 6).blk t).view.emb j) 0).val = t.val * 2000 + (j 0).val := by
    show win1_6.index t (0 : Fin 2) * 2000 + 1 * (j 0).val = _; omega
  have o1 : ((((cfg1.win 6).blk t).view.emb j) 1).val = (j 1).val := by
    show win1_6.index t (1 : Fin 2) * 128 + 1 * (j 1).val = _; omega
  unfold Cert.Sage.eluLin
  refine congrArg Cert.Sage.elu1 ?_
  refine Cert.Sage.lin_congr _ _ _ _ _ _ _ _ _ _ _ _ _ _ (fun k => ?_) ?_ (fun k => ?_) (fun k => ?_) (fun k => ?_) ?_
  · show V c main_v34 (((cfg1.win 0).blk t).view.emb (ix2 (j 0) k)) = V c main_v34 _
    refine congrArg _ (funext fun a => Fin.ext ?_)
    match a with
    | ⟨0, _⟩ => show win1_0.index t (0 : Fin 2) * 2000 + 1 * (j 0).val = _; rw [o0]; omega
    | ⟨1, _⟩ => show win1_0.index t (1 : Fin 2) * 128 + 1 * k.val = k.val; omega
  · show V c main_v12 (((cfg1.win 1).blk t).view.emb (ix2 (j 0) (0 : Fin 1))) = V c main_v12 _
    refine congrArg _ (funext fun a => Fin.ext ?_)
    match a with
    | ⟨0, _⟩ => show win1_1.index t (0 : Fin 2) * 2000 + 1 * (j 0).val = _; rw [o0]; omega
    | ⟨1, _⟩ => show win1_1.index t (1 : Fin 2) * 1 + 1 * 0 = 0; omega
  · show V c main_v24 (((cfg1.win 2).blk t).view.emb (ix2 (j 0) k)) = V c main_v24 _
    refine congrArg _ (funext fun a => Fin.ext ?_)
    match a with
    | ⟨0, _⟩ => show win1_2.index t (0 : Fin 2) * 2000 + 1 * (j 0).val = _; rw [o0]; omega
    | ⟨1, _⟩ => show win1_2.index t (1 : Fin 2) * 128 + 1 * k.val = k.val; omega
  · show V c main_arg5 (((cfg1.win 3).blk t).view.emb (ix2 k (j 1))) = V c main_arg5 _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * (j 1).val = _; rw [o1]; omega
  · show V c main_arg6 (((cfg1.win 4).blk t).view.emb (ix2 k (j 1))) = V c main_arg6 _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * (j 1).val = _; rw [o1]; omega
  · show V c main_v35 (((cfg1.win 5).blk t).view.emb (ix2 (0 : Fin 1) (j 1))) = V c main_v35 _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * (j 1).val = _; rw [o1]; omega

/-- An index of the result array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- Every index of the result array is in some flushing point's block: row `r` in block `r / 2000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- The result array after the grid has run is the layer on the arrays the region found. -/
theorem arr (c : Dev nD) : (dat1 V c).arrAt 6 cfg1.N = G V c :=
  (dat1 V c).arrAt_eq_of_cover 6 (G V c) (fun t _ => flushed_eq V c t) (cover)

end Cert.Sage.Region1

end
-- ==== Proof.Region2.lean ====
/-
  Layer 2's result array after its grid has run.

  The grid has 25 points; point `t` loads rows `2000·t … 2000·t + 1999` of the neighbour sums, of the reciprocal
  degrees and of the nodes' own features, and the whole weight matrices and bias row, and writes back the same
  rows of the result. An entry of the layer formula depends on its arrays only along its own row and column, so
  what point `t` writes is rows `2000·t …` of the formula on the whole arrays; the 25 blocks cover all 50000 rows,
  so the array ends holding the formula everywhere.
-/
import proofs.«154999_j35115652612101_1_alg».proof.Proof.KernelIdealFrame
import proofs.«154999_j35115652612101_1_alg».proof.Proof.Payload

set_option maxRecDepth 16384

noncomputable section

namespace Cert.Sage.Region2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the three row-tiled inputs and the output take block `t` of the rows, the
    weights and the bias their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 25 :=
  (by decide +kernel : ∀ t : Fin grid2.N, _)

/-- Every block of rows is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- The layer on the arrays as the region finds them. -/
abbrev G (c : Dev nD) : S50000x64.Idx → EReal :=
  Cert.Sage.lin (V c main_v46) (V c main_v12) (V c main_v36) (V c main_arg8) (V c main_arg9) (V c main_v47)

/-- What point `t` writes back is rows `2000·t …` of the layer on the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S2000x128) hz, View.ld_unit_zero (S := S2000x1) hz,
    View.ld_unit_zero (S := S128x64) hz, View.ld_unit_zero (S := S1x64) hz]
  rw [Cert.Sage.Payload.pay2]
  obtain ⟨e00, e01, e10, e11, e20, e21, e30, e31, e40, e41, e50, e51, e60, e61, ht⟩ := idx_facts t
  funext j
  show Cert.Sage.lin (iblk2 V c 0 t) (iblk2 V c 1 t) (iblk2 V c 2 t) (iblk2 V c 3 t) (iblk2 V c 4 t) (iblk2 V c 5 t) j
    = Cert.Sage.lin (V c main_v46) (V c main_v12) (V c main_v36) (V c main_arg8) (V c main_arg9) (V c main_v47) (((cfg2.win 6).blk t).view.emb j)
  have hj0 : (j 0).val < 2000 := (j 0).isLt
  have hj1 : (j 1).val < 64 := (j 1).isLt
  have o0 : ((((cfg2.win 6).blk t).view.emb j) 0).val = t.val * 2000 + (j 0).val := by
    show win2_6.index t (0 : Fin 2) * 2000 + 1 * (j 0).val = _; omega
  have o1 : ((((cfg2.win 6).blk t).view.emb j) 1).val = (j 1).val := by
    show win2_6.index t (1 : Fin 2) * 64 + 1 * (j 1).val = _; omega
  refine Cert.Sage.lin_congr _ _ _ _ _ _ _ _ _ _ _ _ _ _ (fun k => ?_) ?_ (fun k => ?_) (fun k => ?_) (fun k => ?_) ?_
  · show V c main_v46 (((cfg2.win 0).blk t).view.emb (ix2 (j 0) k)) = V c main_v46 _
    refine congrArg _ (funext fun a => Fin.ext ?_)
    match a with
    | ⟨0, _⟩ => show win2_0.index t (0 : Fin 2) * 2000 + 1 * (j 0).val = _; rw [o0]; omega
    | ⟨1, _⟩ => show win2_0.index t (1 : Fin 2) * 128 + 1 * k.val = k.val; omega
  · show V c main_v12 (((cfg2.win 1).blk t).view.emb (ix2 (j 0) (0 : Fin 1))) = V c main_v12 _
    refine congrArg _ (funext fun a => Fin.ext ?_)
    match a with
    | ⟨0, _⟩ => show win2_1.index t (0 : Fin 2) * 2000 + 1 * (j 0).val = _; rw [o0]; omega
    | ⟨1, _⟩ => show win2_1.index t (1 : Fin 2) * 1 + 1 * 0 = 0; omega
  · show V c main_v36 (((cfg2.win 2).blk t).view.emb (ix2 (j 0) k)) = V c main_v36 _
    refine congrArg _ (funext fun a => Fin.ext ?_)
    match a with
    | ⟨0, _⟩ => show win2_2.index t (0 : Fin 2) * 2000 + 1 * (j 0).val = _; rw [o0]; omega
    | ⟨1, _⟩ => show win2_2.index t (1 : Fin 2) * 128 + 1 * k.val = k.val; omega
  · show V c main_arg8 (((cfg2.win 3).blk t).view.emb (ix2 k (j 1))) = V c main_arg8 _
    refine congrArg _ (funext fun a => Fin.ext ?_)
    match a with
    | ⟨0, _⟩ => show win2_3.index t (0 : Fin 2) * 128 + 1 * k.val = k.val; omega
    | ⟨1, _⟩ => show win2_3.index t (1 : Fin 2) * 64 + 1 * (j 1).val = _; rw [o1]; omega
  · show V c main_arg9 (((cfg2.win 4).blk t).view.emb (ix2 k (j 1))) = V c main_arg9 _
    refine congrArg _ (funext fun a => Fin.ext ?_)
    match a with
    | ⟨0, _⟩ => show win2_4.index t (0 : Fin 2) * 128 + 1 * k.val = k.val; omega
    | ⟨1, _⟩ => show win2_4.index t (1 : Fin 2) * 64 + 1 * (j 1).val = _; rw [o1]; omega
  · show V c main_v47 (((cfg2.win 5).blk t).view.emb (ix2 (0 : Fin 1) (j 1))) = V c main_v47 _
    refine congrArg _ (funext fun a => Fin.ext ?_)
    match a with
    | ⟨0, _⟩ => show win2_5.index t (0 : Fin 2) * 1 + 1 * 0 = 0; omega
    | ⟨1, _⟩ => show win2_5.index t (1 : Fin 2) * 64 + 1 * (j 1).val = _; rw [o1]; omega

/-- An index of the result array is in point `t`'s block iff each coordinate is in the block's range on its axis. -/
theorem mem_blk (t : Fin cfg2.N) (i : S50000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v48).slice (win2_6.rect t)).set ↔ _
  rw [View.set_slice_whole, Rect.mem_set_unit]
  exact Iff.rfl

/-- Every index of the result array is in some flushing point's block: row `r` in block `r / 2000`. -/
theorem cover (i : S50000x64.Idx) :
    ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- The result array after the grid has run is the layer on the arrays the region found. -/
theorem arr (c : Dev nD) : (dat2 V c).arrAt 6 cfg2.N = G V c :=
  (dat2 V c).arrAt_eq_of_cover 6 (G V c) (fun t _ => flushed_eq V c t) (cover)

end Cert.Sage.Region2

end
-- ==== Proof.KernelChain.lean ====
/-
  The kernel program's result buffer, read back through @main as one equation.

  @main alternates three stretches of host operations with three graph layers. A stretch computes, from the
  edge list, each edge's source and destination, the reciprocal in-degrees (once) and, before each layer, the
  neighbour sums of the previous layer's result; a layer leaves in its result array the layer formula on the
  arrays it found. Walking back from the last layer's result array, one buffer and one boundary at a time, every
  array a layer reads is a named term of the launch memory's eleven arguments, and the result is the three layers
  composed.
-/
import proofs.«154999_j35115652612101_1_alg».proof.Proof.KernelIdealFrame
import proofs.«154999_j35115652612101_1_alg».proof.Proof.Region0
import proofs.«154999_j35115652612101_1_alg».proof.Proof.Region1
import proofs.«154999_j35115652612101_1_alg».proof.Proof.Region2
import proofs.«154999_j35115652612101_1_alg».proof.Proof.KSpec

set_option maxRecDepth 16384

noncomputable section

namespace Cert.Sage.Chain

open Cert.KernelIdeal Cert.KernelIdeal.Gen Cert.KernelIdeal.GenP
open Idealize.ShloMosaic Idealize.ShloMosaic.TcCoe Idealize.SL.Sem
open Cert.Sage (Mat lin eluLin)

section Host
variable {F : FTy → Type} [FloatOps F]

/-- The neighbour sums written from the edges' source and destination rows. -/
def aggOf (h : FVec F S50000x128 .f32) (s d : IVec S800000 32) : FVec F S50000x128 .f32 :=
  Host.scatterAdd scatter_S50000x128_S800000x1_S800000x128_1_0_0_1
    (broadcastInDim S50000x128 ![] Facts₀.bcast_S_S50000x128 (constant S_ .f32 0x00000000#32))
    (broadcastInDim S800000x1 ![0] Facts₀.bcast_S800000_S800000x1_0 d)
    (Host.gather gather_S50000x128_S800000x1_S800000x128_1_0_n_n_0_1_1128 h
      (broadcastInDim S800000x1 ![0] Facts₀.bcast_S800000_S800000x1_0
        (select (cmpi .slt s (broadcastInDim S800000 ![] Facts₀.bcast_S_S800000 (constantI S_ 32 0#32)))
          (addi s (broadcastInDim S800000 ![] Facts₀.bcast_S_S800000 (constantI S_ 32 50000#32))) s)))

theorem agg_eq (h : FVec F S50000x128 .f32) (ei : IVec S2x800000 32) :
    Cert.Sage.K.agg (F := F) h ei = aggOf h (Cert.Sage.K.src ei) (Cert.Sage.K.dst ei) := rfl

/-! ## What each host stretch leaves, from any contents `W` -/

theorem h0_v1 (W : Valuation τ sig (Elt F)) :
    StableHlo.after hostOps0 W (Proc.devRef .tc main_v1) = Cert.Sage.K.src (W (Proc.devRef .tc main_arg1)) := by
  after_results
  rfl

theorem h0_v3 (W : Valuation τ sig (Elt F)) :
    StableHlo.after hostOps0 W (Proc.devRef .tc main_v3) = Cert.Sage.K.dst (W (Proc.devRef .tc main_arg1)) := by
  after_results
  rfl

theorem h0_v12 (W : Valuation τ sig (Elt F)) :
    StableHlo.after hostOps0 W (Proc.devRef .tc main_v12) = Cert.Sage.K.rc (F := F) (W (Proc.devRef .tc main_arg1)) := by
  after_results
  rfl

theorem h0_v22 (W : Valuation τ sig (Elt F)) :
    StableHlo.after hostOps0 W (Proc.devRef .tc main_v22)
      = Cert.Sage.K.agg (F := F) (W (Proc.devRef .tc main_arg0)) (W (Proc.devRef .tc main_arg1)) := by
  after_results_simp
  rfl

theorem h0_v23 (W : Valuation τ sig (Elt F)) :
    StableHlo.after hostOps0 W (Proc.devRef .tc main_v23) = Cert.Sage.K.row128 (F := F) (W (Proc.devRef .tc main_arg4)) := by
  after_results
  rfl

theorem h1_v34 (W : Valuation τ sig (Elt F)) :
    StableHlo.after hostOps1 W (Proc.devRef .tc main_v34)
      = aggOf (F := F) (W (Proc.devRef .tc main_v24)) (W (Proc.devRef .tc main_v1)) (W (Proc.devRef .tc main_v3)) := by
  after_results
  rfl

theorem h1_v35 (W : Valuation τ sig (Elt F)) :
    StableHlo.after hostOps1 W (Proc.devRef .tc main_v35) = Cert.Sage.K.row128 (F := F) (W (Proc.devRef .tc main_arg7)) := by
  after_results
  rfl

theorem h2_v46 (W : Valuation τ sig (Elt F)) :
    StableHlo.after hostOps2 W (Proc.devRef .tc main_v46)
      = aggOf (F := F) (W (Proc.devRef .tc main_v36)) (W (Proc.devRef .tc main_v1)) (W (Proc.devRef .tc main_v3)) := by
  after_results
  rfl

theorem h2_v47 (W : Valuation τ sig (Elt F)) :
    StableHlo.after hostOps2 W (Proc.devRef .tc main_v47) = Cert.Sage.K.row64 (F := F) (W (Proc.devRef .tc main_arg10)) := by
  after_results
  rfl

/-! ## What each host stretch leaves alone -/

theorem k0_arg0 (W : Valuation τ sig (Elt F)) :
    StableHlo.after hostOps0 W (Proc.devRef .tc main_arg0) = W (Proc.devRef .tc main_arg0) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg2 (W : Valuation τ sig (Elt F)) :
    StableHlo.after hostOps0 W (Proc.devRef .tc main_arg2) = W (Proc.devRef .tc main_arg2) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg3 (W : Valuation τ sig (Elt F)) :
    StableHlo.after hostOps0 W (Proc.devRef .tc main_arg3) = W (Proc.devRef .tc main_arg3) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg5 (W : Valuation τ sig (Elt F)) :
    StableHlo.after hostOps0 W (Proc.devRef .tc main_arg5) = W (Proc.devRef .tc main_arg5) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg6 (W : Valuation τ sig (Elt F)) :
    StableHlo.after hostOps0 W (Proc.devRef .tc main_arg6) = W (Proc.devRef .tc main_arg6) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg7 (W : Valuation τ sig (Elt F)) :
    StableHlo.after hostOps0 W (Proc.devRef .tc main_arg7) = W (Proc.devRef .tc main_arg7) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg8 (W : Valuation τ sig (Elt F)) :
    StableHlo.after hostOps0 W (Proc.devRef .tc main_arg8) = W (Proc.devRef .tc main_arg8) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg9 (W : Valuation τ sig (Elt F)) :
    StableHlo.after hostOps0 W (Proc.devRef .tc main_arg9) = W (Proc.devRef .tc main_arg9) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k0_arg10 (W : Valuation τ sig (Elt F)) :
    StableHlo.after hostOps0 W (Proc.devRef .tc main_arg10) = W (Proc.devRef .tc main_arg10) :=
  StableHlo.after_of_forall_not_mem _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_v1 (W : Valuation τ sig (Elt F)) :
    StableHlo.after hostOps1 W (Proc.devRef .tc main_v1) = W (Proc.devRef .tc main_v1) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_v3 (W : Valuation τ sig (Elt F)) :
    StableHlo.after hostOps1 W (Proc.devRef .tc main_v3) = W (Proc.devRef .tc main_v3) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_v12 (W : Valuation τ sig (Elt F)) :
    StableHlo.after hostOps1 W (Proc.devRef .tc main_v12) = W (Proc.devRef .tc main_v12) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_v24 (W : Valuation τ sig (Elt F)) :
    StableHlo.after hostOps1 W (Proc.devRef .tc main_v24) = W (Proc.devRef .tc main_v24) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_arg5 (W : Valuation τ sig (Elt F)) :
    StableHlo.after hostOps1 W (Proc.devRef .tc main_arg5) = W (Proc.devRef .tc main_arg5) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_arg6 (W : Valuation τ sig (Elt F)) :
    StableHlo.after hostOps1 W (Proc.devRef .tc main_arg6) = W (Proc.devRef .tc main_arg6) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_arg8 (W : Valuation τ sig (Elt F)) :
    StableHlo.after hostOps1 W (Proc.devRef .tc main_arg8) = W (Proc.devRef .tc main_arg8) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_arg9 (W : Valuation τ sig (Elt F)) :
    StableHlo.after hostOps1 W (Proc.devRef .tc main_arg9) = W (Proc.devRef .tc main_arg9) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k1_arg10 (W : Valuation τ sig (Elt F)) :
    StableHlo.after hostOps1 W (Proc.devRef .tc main_arg10) = W (Proc.devRef .tc main_arg10) :=
  StableHlo.after_of_forall_not_mem _ _ (List.forall_iff_forall_mem.mp (by
    simp only [hostOps1, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k2_v12 (W : Valuation τ sig (Elt F)) :
    StableHlo.after hostOps2 W (Proc.devRef .tc main_v12) = W (Proc.devRef .tc main_v12) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k2_v36 (W : Valuation τ sig (Elt F)) :
    StableHlo.after hostOps2 W (Proc.devRef .tc main_v36) = W (Proc.devRef .tc main_v36) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k2_arg8 (W : Valuation τ sig (Elt F)) :
    StableHlo.after hostOps2 W (Proc.devRef .tc main_arg8) = W (Proc.devRef .tc main_arg8) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

theorem k2_arg9 (W : Valuation τ sig (Elt F)) :
    StableHlo.after hostOps2 W (Proc.devRef .tc main_arg9) = W (Proc.devRef .tc main_arg9) :=
  StableHlo.after_of_forall_not_mem _ _ (List.forall_iff_forall_mem.mp (by
    simp only [hostOps2, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-! ## Equal arguments give equal layers -/

theorem aggOf_eq {h h' : FVec F S50000x128 .f32} {s s' d d' : IVec S800000 32} (eh : h = h') (es : s = s') (ed : d = d') :
    aggOf h s d = aggOf h' s' d' := by subst eh es ed; rfl

end Host

theorem eluLin_eq {M K N : ℕ} {a a' : Mat M K} {r r' : Mat M 1} {h h' : Mat M K} {wl wl' wr wr' : Mat K N} {b b' : Mat 1 N}
    (ea : a = a') (er : r = r') (eh : h = h') (el : wl = wl') (ew : wr = wr') (eb : b = b') :
    eluLin a r h wl wr b = eluLin a' r' h' wl' wr' b' := by subst ea er eh el ew eb; rfl

theorem lin_eq {M K N : ℕ} {a a' : Mat M K} {r r' : Mat M 1} {h h' : Mat M K} {wl wl' wr wr' : Mat K N} {b b' : Mat 1 N}
    (ea : a = a') (er : r = r') (eh : h = h') (el : wl = wl') (ew : wr = wr') (eb : b = b') :
    lin a r h wl wr b = lin a' r' h' wl' wr' b' := by subst ea er eh el ew eb; rfl

/-! ## The buffers at each boundary of @main, on the extended reals

`W0` is the launch memory; `W1`, `W3`, `W5` follow the three host stretches and `W2`, `W4`, `W6` the three layers.
Each lemma reads one buffer at one boundary, one step back. -/

section Run
variable (m : (ℓ : Loc nD τ sig) → Buf (Elt Ideal) ℓ) (ρ : Dev nD → PrngReg) (c : Dev nD)

/-! ### After host stretch 0 -/

theorem W1_v1 : W1 m ρ c (Proc.devRef .tc main_v1) = Cert.Sage.K.src (m ((c : Thread nD τ).loc main_arg1)) :=
  h0_v1 (W0 m ρ c)

theorem W1_v3 : W1 m ρ c (Proc.devRef .tc main_v3) = Cert.Sage.K.dst (m ((c : Thread nD τ).loc main_arg1)) :=
  h0_v3 (W0 m ρ c)

theorem W1_v12 : W1 m ρ c (Proc.devRef .tc main_v12) = Cert.Sage.K.rc (F := Ideal) (m ((c : Thread nD τ).loc main_arg1)) :=
  h0_v12 (W0 m ρ c)

theorem W1_v22 : W1 m ρ c (Proc.devRef .tc main_v22) = Cert.Sage.K.agg (F := Ideal) (m ((c : Thread nD τ).loc main_arg0)) (m ((c : Thread nD τ).loc main_arg1)) :=
  h0_v22 (W0 m ρ c)

theorem W1_v23 : W1 m ρ c (Proc.devRef .tc main_v23) = Cert.Sage.K.row128 (F := Ideal) (m ((c : Thread nD τ).loc main_arg4)) :=
  h0_v23 (W0 m ρ c)

theorem W1_arg0 : W1 m ρ c (Proc.devRef .tc main_arg0) = (m ((c : Thread nD τ).loc main_arg0)) :=
  k0_arg0 (W0 m ρ c)

theorem W1_arg2 : W1 m ρ c (Proc.devRef .tc main_arg2) = (m ((c : Thread nD τ).loc main_arg2)) :=
  k0_arg2 (W0 m ρ c)

theorem W1_arg3 : W1 m ρ c (Proc.devRef .tc main_arg3) = (m ((c : Thread nD τ).loc main_arg3)) :=
  k0_arg3 (W0 m ρ c)

theorem W1_arg5 : W1 m ρ c (Proc.devRef .tc main_arg5) = (m ((c : Thread nD τ).loc main_arg5)) :=
  k0_arg5 (W0 m ρ c)

theorem W1_arg6 : W1 m ρ c (Proc.devRef .tc main_arg6) = (m ((c : Thread nD τ).loc main_arg6)) :=
  k0_arg6 (W0 m ρ c)

theorem W1_arg7 : W1 m ρ c (Proc.devRef .tc main_arg7) = (m ((c : Thread nD τ).loc main_arg7)) :=
  k0_arg7 (W0 m ρ c)

theorem W1_arg8 : W1 m ρ c (Proc.devRef .tc main_arg8) = (m ((c : Thread nD τ).loc main_arg8)) :=
  k0_arg8 (W0 m ρ c)

theorem W1_arg9 : W1 m ρ c (Proc.devRef .tc main_arg9) = (m ((c : Thread nD τ).loc main_arg9)) :=
  k0_arg9 (W0 m ρ c)

theorem W1_arg10 : W1 m ρ c (Proc.devRef .tc main_arg10) = (m ((c : Thread nD τ).loc main_arg10)) :=
  k0_arg10 (W0 m ρ c)

/-! ### After layer 0 -/

theorem W2_v1 : W2 m ρ c (Proc.devRef .tc main_v1) = Cert.Sage.K.src (m ((c : Thread nD τ).loc main_arg1)) :=
  (W2_of_ne m ρ c main_v1 (by decide)).trans (W1_v1 m ρ c)

theorem W2_v3 : W2 m ρ c (Proc.devRef .tc main_v3) = Cert.Sage.K.dst (m ((c : Thread nD τ).loc main_arg1)) :=
  (W2_of_ne m ρ c main_v3 (by decide)).trans (W1_v3 m ρ c)

theorem W2_v12 : W2 m ρ c (Proc.devRef .tc main_v12) = Cert.Sage.K.rc (F := Ideal) (m ((c : Thread nD τ).loc main_arg1)) :=
  ((W2_arr m ρ c 1).trans (((dat0 (V1 m ρ) c).arrAt_in 1 rfl _).trans (A_eq0 (V1 m ρ) c 1))).trans (W1_v12 m ρ c)

theorem W2_arg5 : W2 m ρ c (Proc.devRef .tc main_arg5) = (m ((c : Thread nD τ).loc main_arg5)) :=
  (W2_of_ne m ρ c main_arg5 (by decide)).trans (W1_arg5 m ρ c)

theorem W2_arg6 : W2 m ρ c (Proc.devRef .tc main_arg6) = (m ((c : Thread nD τ).loc main_arg6)) :=
  (W2_of_ne m ρ c main_arg6 (by decide)).trans (W1_arg6 m ρ c)

theorem W2_arg7 : W2 m ρ c (Proc.devRef .tc main_arg7) = (m ((c : Thread nD τ).loc main_arg7)) :=
  (W2_of_ne m ρ c main_arg7 (by decide)).trans (W1_arg7 m ρ c)

theorem W2_arg8 : W2 m ρ c (Proc.devRef .tc main_arg8) = (m ((c : Thread nD τ).loc main_arg8)) :=
  (W2_of_ne m ρ c main_arg8 (by decide)).trans (W1_arg8 m ρ c)

theorem W2_arg9 : W2 m ρ c (Proc.devRef .tc main_arg9) = (m ((c : Thread nD τ).loc main_arg9)) :=
  (W2_of_ne m ρ c main_arg9 (by decide)).trans (W1_arg9 m ρ c)

theorem W2_arg10 : W2 m ρ c (Proc.devRef .tc main_arg10) = (m ((c : Thread nD τ).loc main_arg10)) :=
  (W2_of_ne m ρ c main_arg10 (by decide)).trans (W1_arg10 m ρ c)

theorem W2_v24 : W2 m ρ c (Proc.devRef .tc main_v24) = (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) :=
  ((W2_arr m ρ c 6).trans (Region0.arr (V1 m ρ) c)).trans
    (eluLin_eq (W1_v22 m ρ c) (W1_v12 m ρ c) (W1_arg0 m ρ c) (W1_arg2 m ρ c) (W1_arg3 m ρ c) (W1_v23 m ρ c))

/-! ### After host stretch 1 -/

theorem W3_v34 : W3 m ρ c (Proc.devRef .tc main_v34) = Cert.Sage.K.agg (F := Ideal) (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) :=
  (h1_v34 (W2 m ρ c)).trans ((aggOf_eq (W2_v24 m ρ c) (W2_v1 m ρ c) (W2_v3 m ρ c)).trans (agg_eq _ _).symm)

theorem W3_v35 : W3 m ρ c (Proc.devRef .tc main_v35) = Cert.Sage.K.row128 (F := Ideal) (m ((c : Thread nD τ).loc main_arg7)) :=
  (h1_v35 (W2 m ρ c)).trans (congrArg (Cert.Sage.K.row128 (F := Ideal)) (W2_arg7 m ρ c))

theorem W3_v1 : W3 m ρ c (Proc.devRef .tc main_v1) = Cert.Sage.K.src (m ((c : Thread nD τ).loc main_arg1)) :=
  (k1_v1 (W2 m ρ c)).trans (W2_v1 m ρ c)

theorem W3_v3 : W3 m ρ c (Proc.devRef .tc main_v3) = Cert.Sage.K.dst (m ((c : Thread nD τ).loc main_arg1)) :=
  (k1_v3 (W2 m ρ c)).trans (W2_v3 m ρ c)

theorem W3_v12 : W3 m ρ c (Proc.devRef .tc main_v12) = Cert.Sage.K.rc (F := Ideal) (m ((c : Thread nD τ).loc main_arg1)) :=
  (k1_v12 (W2 m ρ c)).trans (W2_v12 m ρ c)

theorem W3_v24 : W3 m ρ c (Proc.devRef .tc main_v24) = (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) :=
  (k1_v24 (W2 m ρ c)).trans (W2_v24 m ρ c)

theorem W3_arg5 : W3 m ρ c (Proc.devRef .tc main_arg5) = (m ((c : Thread nD τ).loc main_arg5)) :=
  (k1_arg5 (W2 m ρ c)).trans (W2_arg5 m ρ c)

theorem W3_arg6 : W3 m ρ c (Proc.devRef .tc main_arg6) = (m ((c : Thread nD τ).loc main_arg6)) :=
  (k1_arg6 (W2 m ρ c)).trans (W2_arg6 m ρ c)

theorem W3_arg8 : W3 m ρ c (Proc.devRef .tc main_arg8) = (m ((c : Thread nD τ).loc main_arg8)) :=
  (k1_arg8 (W2 m ρ c)).trans (W2_arg8 m ρ c)

theorem W3_arg9 : W3 m ρ c (Proc.devRef .tc main_arg9) = (m ((c : Thread nD τ).loc main_arg9)) :=
  (k1_arg9 (W2 m ρ c)).trans (W2_arg9 m ρ c)

theorem W3_arg10 : W3 m ρ c (Proc.devRef .tc main_arg10) = (m ((c : Thread nD τ).loc main_arg10)) :=
  (k1_arg10 (W2 m ρ c)).trans (W2_arg10 m ρ c)

/-! ### After layer 1 -/

theorem W4_v1 : W4 m ρ c (Proc.devRef .tc main_v1) = Cert.Sage.K.src (m ((c : Thread nD τ).loc main_arg1)) :=
  (W4_of_ne m ρ c main_v1 (by decide)).trans (W3_v1 m ρ c)

theorem W4_v3 : W4 m ρ c (Proc.devRef .tc main_v3) = Cert.Sage.K.dst (m ((c : Thread nD τ).loc main_arg1)) :=
  (W4_of_ne m ρ c main_v3 (by decide)).trans (W3_v3 m ρ c)

theorem W4_v12 : W4 m ρ c (Proc.devRef .tc main_v12) = Cert.Sage.K.rc (F := Ideal) (m ((c : Thread nD τ).loc main_arg1)) :=
  ((W4_arr m ρ c 1).trans (((dat1 (V3 m ρ) c).arrAt_in 1 rfl _).trans (A_eq1 (V3 m ρ) c 1))).trans (W3_v12 m ρ c)

theorem W4_arg8 : W4 m ρ c (Proc.devRef .tc main_arg8) = (m ((c : Thread nD τ).loc main_arg8)) :=
  (W4_of_ne m ρ c main_arg8 (by decide)).trans (W3_arg8 m ρ c)

theorem W4_arg9 : W4 m ρ c (Proc.devRef .tc main_arg9) = (m ((c : Thread nD τ).loc main_arg9)) :=
  (W4_of_ne m ρ c main_arg9 (by decide)).trans (W3_arg9 m ρ c)

theorem W4_arg10 : W4 m ρ c (Proc.devRef .tc main_arg10) = (m ((c : Thread nD τ).loc main_arg10)) :=
  (W4_of_ne m ρ c main_arg10 (by decide)).trans (W3_arg10 m ρ c)

theorem W4_v36 : W4 m ρ c (Proc.devRef .tc main_v36) = (Cert.Sage.K.hidden (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) :=
  ((W4_arr m ρ c 6).trans (Region1.arr (V3 m ρ) c)).trans
    (eluLin_eq (W3_v34 m ρ c) (W3_v12 m ρ c) (W3_v24 m ρ c) (W3_arg5 m ρ c) (W3_arg6 m ρ c) (W3_v35 m ρ c))

/-! ### After host stretch 2 -/

theorem W5_v46 : W5 m ρ c (Proc.devRef .tc main_v46) = Cert.Sage.K.agg (F := Ideal) (Cert.Sage.K.hidden (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) :=
  (h2_v46 (W4 m ρ c)).trans ((aggOf_eq (W4_v36 m ρ c) (W4_v1 m ρ c) (W4_v3 m ρ c)).trans (agg_eq _ _).symm)

theorem W5_v47 : W5 m ρ c (Proc.devRef .tc main_v47) = Cert.Sage.K.row64 (F := Ideal) (m ((c : Thread nD τ).loc main_arg10)) :=
  (h2_v47 (W4 m ρ c)).trans (congrArg (Cert.Sage.K.row64 (F := Ideal)) (W4_arg10 m ρ c))

theorem W5_v12 : W5 m ρ c (Proc.devRef .tc main_v12) = Cert.Sage.K.rc (F := Ideal) (m ((c : Thread nD τ).loc main_arg1)) :=
  (k2_v12 (W4 m ρ c)).trans (W4_v12 m ρ c)

theorem W5_v36 : W5 m ρ c (Proc.devRef .tc main_v36) = (Cert.Sage.K.hidden (Cert.Sage.K.hidden (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) :=
  (k2_v36 (W4 m ρ c)).trans (W4_v36 m ρ c)

theorem W5_arg8 : W5 m ρ c (Proc.devRef .tc main_arg8) = (m ((c : Thread nD τ).loc main_arg8)) :=
  (k2_arg8 (W4 m ρ c)).trans (W4_arg8 m ρ c)

theorem W5_arg9 : W5 m ρ c (Proc.devRef .tc main_arg9) = (m ((c : Thread nD τ).loc main_arg9)) :=
  (k2_arg9 (W4 m ρ c)).trans (W4_arg9 m ρ c)

/-! ### After layer 2: the result -/

/-- The kernel program's result buffer, read back through @main: the three layers on the launch memory's arguments. -/
theorem out_eq : W6 m ρ c (Proc.devRef .tc main_v48)
    = Cert.Sage.K.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ((W6_arr m ρ c 6).trans (Region2.arr (V5 m ρ) c)).trans
    (lin_eq (W5_v46 m ρ c) (W5_v12 m ρ c) (W5_v36 m ρ c) (W5_arg8 m ρ c) (W5_arg9 m ρ c) (W5_v47 m ρ c))

end Run

end Cert.Sage.Chain

end
-- ==== Proof.RefRunA.lean ====
/-
  The reference program's @main as one straight line of host operations, its two calls of ELU unfolded at their
  call sites, and the run of that line.

  @main is two windows run in order. The first computes the edge sources and destinations, the first layer's
  aggregate, neighbour count and linear part, its ELU, and the second layer's aggregate and count; the second
  computes the second layer's linear part and ELU and the whole third layer. Each ELU is fifteen operations over
  the buffers its call names: two comparisons of the argument with zero, the inner selection (a scalar zero
  converted, laid across the array, chosen where the argument is positive), its exponential less one, the product
  with one, and the outer selection. The line is cut where the layers' stages end, into six lists whose
  concatenation is the program: every weakly fair execution terminates with each buffer at the fold of the
  operations' results over its launch contents.
-/
import proofs.«154999_j35115652612101_1_alg».proof.Proof.Gen.ReferenceIdeal
import Idealize.ShloMosaic.Lib.StableHlo.Run
import Idealize.ShloMosaic.Lib.Pipeline.Frame

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-- The first ELU's argument, as its call site passes it. -/
abbrev p0 : TRef sig ⟨S50000x128, .f32⟩ := .of main_v28
/-- The second ELU's argument, as its call site passes it. -/
abbrev p1 : TRef sig ⟨S50000x128, .f32⟩ := .of main_v54

/-- The edge sources and destinations and the first layer before its activation: thirty-five operations. -/
abbrev opsA : List (HloOp τ sig (Elt F)) :=
  [ unary main_arg1 main_v0 (extractStridedSlice S1x800000 ![0, 0] · slices_S2x800000_S1x800000_0_0),
    reshape main_v0 main_v1 rfl shapeCasts_S1x800000_S800000,
    unary main_arg1 main_v2 (extractStridedSlice S1x800000 ![1, 0] · slices_S2x800000_S1x800000_1_0),
    reshape main_v2 main_v3 rfl shapeCasts_S1x800000_S800000,
    nullary main_c (constantI S_ 32 0#32),
    unary main_c main_v4 (broadcastInDim S800000 ![] bcast_S_S800000),
    binary main_v1 main_v4 main_v5 (cmpi .slt),
    nullary main_c_0 (constantI S_ 32 50000#32),
    unary main_c_0 main_v6 (broadcastInDim S800000 ![] bcast_S_S800000),
    binary main_v1 main_v6 main_v7 addi,
    ternary main_v5 main_v7 main_v1 main_v8 select,
    unary main_v8 main_v9 (broadcastInDim S800000x1 ![0] bcast_S800000_S800000x1_0),
    binary main_arg0 main_v9 main_v10 (fun x i => Host.gather gather_S50000x128_S800000x1_S800000x128_1_0_n_n_0_1_1128 x i),
    nullary main_cst (constant S_ .f32 0x00000000#32),
    unary main_cst main_v11 (broadcastInDim S50000x128 ![] bcast_S_S50000x128),
    unary main_v3 main_v12 (broadcastInDim S800000x1 ![0] bcast_S800000_S800000x1_0),
    ternary main_v11 main_v12 main_v10 main_v13 (fun x i u => Host.scatterAdd scatter_S50000x128_S800000x1_S800000x128_1_0_0_1 x i u),
    nullary main_cst_1 (constant S_ .f32 0x3F800000#32),
    unary main_cst_1 main_v14 (broadcastInDim S800000 ![] bcast_S_S800000),
    nullary main_cst_2 (constant S_ .f32 0x00000000#32),
    unary main_cst_2 main_v15 (broadcastInDim S50000 ![] bcast_S_S50000),
    unary main_v3 main_v16 (broadcastInDim S800000x1 ![0] bcast_S800000_S800000x1_0),
    ternary main_v15 main_v16 main_v14 main_v17 (fun x i u => Host.scatterAdd scatter_S50000_S800000x1_S800000_n_0_0_1 x i u),
    nullary main_cst_3 (constant S_ .f32 0x3F800000#32),
    unary main_cst_3 main_v18 (broadcastInDim S50000 ![] bcast_S_S50000),
    binary main_v17 main_v18 main_v19 maximumf,
    unary main_v19 main_v20 (broadcastInDim S50000x1 ![0] bcast_S50000_S50000x1_0),
    unary main_v20 main_v21 (broadcastInDim S50000x128 ![0, 1] bcast_S50000x1_S50000x128_0_1),
    binary main_v13 main_v21 main_v22 Host.divf,
    binary main_v22 main_arg2 main_v23 (fun l r => Host.dotGeneral dot_S50000x128_S128x128_S50000x128_1_0_0_1_n_n none l r),
    binary main_arg0 main_arg3 main_v24 (fun l r => Host.dotGeneral dot_S50000x128_S128x128_S50000x128_1_0_0_1_n_n none l r),
    binary main_v23 main_v24 main_v25 addf,
    unary main_arg4 main_v26 (broadcastInDim S1x128 ![1] bcast_S128_S1x128_1),
    unary main_v26 main_v27 (broadcastInDim S50000x128 ![0, 1] bcast_S1x128_S50000x128_0_1),
    binary main_v25 main_v27 main_v28 addf ]

/-- The first ELU, over the buffers its call names: fifteen operations. -/
abbrev opsB : List (HloOp τ sig (Elt F)) :=
  [ TRef.nullary main_call0.cst (constant S_ .f32 0x00000000#32),
    TRef.unary main_call0.cst main_call0.v0 (broadcastInDim S50000x128 ![] bcast_S_S50000x128),
    TRef.binary p0 main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary p0 main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 p0 main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 p0 main_call0.v7 main_call0.call1.v0 select ]

/-- The second layer's aggregate and neighbour count: twenty-four operations. -/
abbrev opsC : List (HloOp τ sig (Elt F)) :=
  [ nullary main_c_4 (constantI S_ 32 0#32),
    unary main_c_4 main_v30 (broadcastInDim S800000 ![] bcast_S_S800000),
    binary main_v1 main_v30 main_v31 (cmpi .slt),
    nullary main_c_5 (constantI S_ 32 50000#32),
    unary main_c_5 main_v32 (broadcastInDim S800000 ![] bcast_S_S800000),
    binary main_v1 main_v32 main_v33 addi,
    ternary main_v31 main_v33 main_v1 main_v34 select,
    unary main_v34 main_v35 (broadcastInDim S800000x1 ![0] bcast_S800000_S800000x1_0),
    binary main_v29 main_v35 main_v36 (fun x i => Host.gather gather_S50000x128_S800000x1_S800000x128_1_0_n_n_0_1_1128 x i),
    nullary main_cst_6 (constant S_ .f32 0x00000000#32),
    unary main_cst_6 main_v37 (broadcastInDim S50000x128 ![] bcast_S_S50000x128),
    unary main_v3 main_v38 (broadcastInDim S800000x1 ![0] bcast_S800000_S800000x1_0),
    ternary main_v37 main_v38 main_v36 main_v39 (fun x i u => Host.scatterAdd scatter_S50000x128_S800000x1_S800000x128_1_0_0_1 x i u),
    nullary main_cst_7 (constant S_ .f32 0x3F800000#32),
    unary main_cst_7 main_v40 (broadcastInDim S800000 ![] bcast_S_S800000),
    nullary main_cst_8 (constant S_ .f32 0x00000000#32),
    unary main_cst_8 main_v41 (broadcastInDim S50000 ![] bcast_S_S50000),
    unary main_v3 main_v42 (broadcastInDim S800000x1 ![0] bcast_S800000_S800000x1_0),
    ternary main_v41 main_v42 main_v40 main_v43 (fun x i u => Host.scatterAdd scatter_S50000_S800000x1_S800000_n_0_0_1 x i u),
    nullary main_cst_9 (constant S_ .f32 0x3F800000#32),
    unary main_cst_9 main_v44 (broadcastInDim S50000 ![] bcast_S_S50000),
    binary main_v43 main_v44 main_v45 maximumf,
    unary main_v45 main_v46 (broadcastInDim S50000x1 ![0] bcast_S50000_S50000x1_0),
    unary main_v46 main_v47 (broadcastInDim S50000x128 ![0, 1] bcast_S50000x1_S50000x128_0_1) ]

/-- The second layer's linear part: seven operations. -/
abbrev opsD : List (HloOp τ sig (Elt F)) :=
  [ binary main_v39 main_v47 main_v48 Host.divf,
    binary main_v48 main_arg5 main_v49 (fun l r => Host.dotGeneral dot_S50000x128_S128x128_S50000x128_1_0_0_1_n_n none l r),
    binary main_v29 main_arg6 main_v50 (fun l r => Host.dotGeneral dot_S50000x128_S128x128_S50000x128_1_0_0_1_n_n none l r),
    binary main_v49 main_v50 main_v51 addf,
    unary main_arg7 main_v52 (broadcastInDim S1x128 ![1] bcast_S128_S1x128_1),
    unary main_v52 main_v53 (broadcastInDim S50000x128 ![0, 1] bcast_S1x128_S50000x128_0_1),
    binary main_v51 main_v53 main_v54 addf ]

/-- The second ELU, over the buffers its call names: fifteen operations. -/
abbrev opsE : List (HloOp τ sig (Elt F)) :=
  [ TRef.nullary main_call1.cst (constant S_ .f32 0x00000000#32),
    TRef.unary main_call1.cst main_call1.v0 (broadcastInDim S50000x128 ![] bcast_S_S50000x128),
    TRef.binary p1 main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary p1 main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 p1 main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 p1 main_call1.v7 main_call1.call1.v0 select ]

/-- The third layer: thirty-one operations. -/
abbrev opsF : List (HloOp τ sig (Elt F)) :=
  [ nullary main_c_10 (constantI S_ 32 0#32),
    unary main_c_10 main_v56 (broadcastInDim S800000 ![] bcast_S_S800000),
    binary main_v1 main_v56 main_v57 (cmpi .slt),
    nullary main_c_11 (constantI S_ 32 50000#32),
    unary main_c_11 main_v58 (broadcastInDim S800000 ![] bcast_S_S800000),
    binary main_v1 main_v58 main_v59 addi,
    ternary main_v57 main_v59 main_v1 main_v60 select,
    unary main_v60 main_v61 (broadcastInDim S800000x1 ![0] bcast_S800000_S800000x1_0),
    binary main_v55 main_v61 main_v62 (fun x i => Host.gather gather_S50000x128_S800000x1_S800000x128_1_0_n_n_0_1_1128 x i),
    nullary main_cst_12 (constant S_ .f32 0x00000000#32),
    unary main_cst_12 main_v63 (broadcastInDim S50000x128 ![] bcast_S_S50000x128),
    unary main_v3 main_v64 (broadcastInDim S800000x1 ![0] bcast_S800000_S800000x1_0),
    ternary main_v63 main_v64 main_v62 main_v65 (fun x i u => Host.scatterAdd scatter_S50000x128_S800000x1_S800000x128_1_0_0_1 x i u),
    nullary main_cst_13 (constant S_ .f32 0x3F800000#32),
    unary main_cst_13 main_v66 (broadcastInDim S800000 ![] bcast_S_S800000),
    nullary main_cst_14 (constant S_ .f32 0x00000000#32),
    unary main_cst_14 main_v67 (broadcastInDim S50000 ![] bcast_S_S50000),
    unary main_v3 main_v68 (broadcastInDim S800000x1 ![0] bcast_S800000_S800000x1_0),
    ternary main_v67 main_v68 main_v66 main_v69 (fun x i u => Host.scatterAdd scatter_S50000_S800000x1_S800000_n_0_0_1 x i u),
    nullary main_cst_15 (constant S_ .f32 0x3F800000#32),
    unary main_cst_15 main_v70 (broadcastInDim S50000 ![] bcast_S_S50000),
    binary main_v69 main_v70 main_v71 maximumf,
    unary main_v71 main_v72 (broadcastInDim S50000x1 ![0] bcast_S50000_S50000x1_0),
    unary main_v72 main_v73 (broadcastInDim S50000x128 ![0, 1] bcast_S50000x1_S50000x128_0_1),
    binary main_v65 main_v73 main_v74 Host.divf,
    binary main_v74 main_arg8 main_v75 (fun l r => Host.dotGeneral dot_S50000x128_S128x64_S50000x64_1_0_0_1_n_n none l r),
    binary main_v55 main_arg9 main_v76 (fun l r => Host.dotGeneral dot_S50000x128_S128x64_S50000x64_1_0_0_1_n_n none l r),
    binary main_v75 main_v76 main_v77 addf,
    unary main_arg10 main_v78 (broadcastInDim S1x64 ![1] bcast_S64_S1x64_1),
    unary main_v78 main_v79 (broadcastInDim S50000x64 ![0, 1] bcast_S1x64_S50000x64_0_1),
    binary main_v77 main_v79 main_v80 addf ]

/-- @main's operations in order, the calls unfolded. -/
abbrev ops : List (HloOp τ sig (Elt F)) := opsA ++ (opsB ++ (opsC ++ (opsD ++ (opsE ++ opsF))))

set_option maxRecDepth 16384 in
set_option maxHeartbeats 4000000 in
/-- The first window is its seventy-four operations in order: the call's definition unfolded at its call site and
    sequencing reassociated, both sides are one chain of steps. -/
theorem main_part0_eq (c : Dev nD) : main_part0 (F := F) c = seq (opsA ++ (opsB ++ opsC)) := rfl

set_option maxRecDepth 16384 in
set_option maxHeartbeats 4000000 in
/-- The second window is its fifty-three operations in order. -/
theorem main_part1_eq (c : Dev nD) : main_part1 (F := F) c = seq (opsD ++ (opsE ++ opsF)) := rfl

/-- @main is the whole line: its two windows in order. -/
theorem main_eq (c : Dev nD) : main (F := F) c = seq ops := by
  have h : (ops : List (HloOp τ sig (Elt F))) = (opsA ++ (opsB ++ opsC)) ++ (opsD ++ (opsE ++ opsF)) := by
    simp only [ops, List.append_assoc]
  rw [h, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! ## Every operation touches TensorCore references only -/

theorem opsA_sub : (opsA : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., binary_bufs_sub ..,
    binary_bufs_sub .., binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..⟩

theorem opsD_sub : (opsD : List (HloOp τ sig (Elt F))).Forall fun op => op.bufs ⊆ tcRefs τ sig :=
  ⟨binary_bufs_sub .., binary_bufs_sub .., binary_bufs_sub .., binary_bufs_sub .., unary_bufs_sub .., unary_bufs_sub ..,
    binary_bufs_sub ..⟩

theorem opsE_sub : (opsE : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., binary_bufs_sub .., binary_bufs_sub .., binary_bufs_sub .., unary_bufs_sub .., unary_bufs_sub ..,
    binary_bufs_sub ..⟩

theorem ops_sub : (ops : List (HloOp τ sig (Elt F))).Forall fun op => op.bufs ⊆ tcRefs τ sig :=
  forall_append opsA_sub (forall_append opsB_sub (forall_append opsC_sub (forall_append opsD_sub (forall_append opsE_sub opsF_sub))))

/-! ## Every operation determines its results -/

theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩
theorem opsB_fresh : (opsB : List (HloOp τ sig (Elt F))).Forall fun op => op.fresh = ∅ :=
  ⟨rfl, rfl, rfl, rfl, rfl, rfl, rfl, rfl, rfl, rfl, rfl, rfl, rfl, rfl, rfl⟩
theorem opsC_fresh : (opsC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
theorem opsD_fresh : (opsD : List (HloOp τ sig (Elt F))).Forall fun op => op.fresh = ∅ :=
  ⟨rfl, rfl, rfl, rfl, rfl, rfl, rfl⟩
theorem opsE_fresh : (opsE : List (HloOp τ sig (Elt F))).Forall fun op => op.fresh = ∅ :=
  ⟨rfl, rfl, rfl, rfl, rfl, rfl, rfl, rfl, rfl, rfl, rfl, rfl, rfl, rfl, rfl⟩
theorem opsF_fresh : (opsF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl⟩

theorem ops_fresh : (ops : List (HloOp τ sig (Elt F))).Forall fun op => op.fresh = ∅ :=
  forall_append opsA_fresh (forall_append opsB_fresh (forall_append opsC_fresh (forall_append opsD_fresh (forall_append opsE_fresh opsF_fresh))))

/-! ## The run -/

/-- On every device, for any float values, from any memory with zero counters: every weakly fair execution of @main
    terminates, and every final state has each TensorCore buffer at the fold of the operations' results over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

end Cert.Sage.RefRun

end
-- ==== Proof.RefRunB.lean ====
/-
  What the reference's line leaves in its buffers, stage by stage, as the named terms of the reference's layers.

  The line is six lists. A buffer a list does not write keeps its contents through it. The first list leaves the
  edge sources and destinations and the first layer's linear part; each ELU list leaves ELU of its argument; the
  third leaves the second layer's aggregate and neighbour count, read through the sources and destinations the
  first list left; the fourth the second layer's linear part; the sixth the third layer. Composed, the result
  buffer holds the reference's result as a function of the eleven arguments, and the arguments are unchanged.
-/
import proofs.«154999_j35115652612101_1_alg».proof.Proof.RefRunA
import proofs.«154999_j35115652612101_1_alg».proof.Proof.RefSpec

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-! ## What each list writes -/

/-- A single written buffer lies among a list of references that holds it. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

abbrev wA : List (Ref sig .tc) :=
  [main_v0, main_v1, main_v2, main_v3, main_c, main_v4, main_v5, main_c_0, main_v6, main_v7, main_v8, main_v9, main_v10, main_cst,
    main_v11, main_v12, main_v13, main_cst_1, main_v14, main_cst_2, main_v15, main_v16, main_v17, main_cst_3, main_v18, main_v19,
    main_v20, main_v21, main_v22, main_v23, main_v24, main_v25, main_v26, main_v27, main_v28]
abbrev wB : List (Ref sig .tc) :=
  [main_call0_cst, main_call0_v0, main_call0_v1, main_call0_cst_0, main_call0_v2, main_call0_v3, main_call0_cst_1,
    main_call0_call0_v0, main_call0_call0_v1, main_call0_v4, main_call0_v5, main_call0_cst_2, main_call0_v6, main_call0_v7, main_v29]
abbrev wC : List (Ref sig .tc) :=
  [main_c_4, main_v30, main_v31, main_c_5, main_v32, main_v33, main_v34, main_v35, main_v36, main_cst_6, main_v37, main_v38,
    main_v39, main_cst_7, main_v40, main_cst_8, main_v41, main_v42, main_v43, main_cst_9, main_v44, main_v45, main_v46, main_v47]
abbrev wD : List (Ref sig .tc) := [main_v48, main_v49, main_v50, main_v51, main_v52, main_v53, main_v54]
abbrev wE : List (Ref sig .tc) :=
  [main_call1_cst, main_call1_v0, main_call1_v1, main_call1_cst_0, main_call1_v2, main_call1_v3, main_call1_cst_1,
    main_call1_call0_v0, main_call1_call0_v1, main_call1_v4, main_call1_v5, main_call1_cst_2, main_call1_v6, main_call1_v7, main_v55]
abbrev wF : List (Ref sig .tc) :=
  [main_c_10, main_v56, main_v57, main_c_11, main_v58, main_v59, main_v60, main_v61, main_v62, main_cst_12, main_v63, main_v64,
    main_v65, main_cst_13, main_v66, main_cst_14, main_v67, main_v68, main_v69, main_cst_15, main_v70, main_v71, main_v72, main_v73,
    main_v74, main_v75, main_v76, main_v77, main_v78, main_v79, main_v80]

theorem opsA_writes : (opsA : List (HloOp τ sig (Elt F))).Forall fun op =>
    op.writes ⊆ (wA.map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide)⟩
theorem opsB_writes : (opsB : List (HloOp τ sig (Elt F))).Forall fun op =>
    op.writes ⊆ (wB.map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide)⟩
theorem opsC_writes : (opsC : List (HloOp τ sig (Elt F))).Forall fun op =>
    op.writes ⊆ (wC.map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide)⟩
theorem opsD_writes : (opsD : List (HloOp τ sig (Elt F))).Forall fun op =>
    op.writes ⊆ (wD.map (Proc.devRef (τ := τ) .tc)).toFinset :=
  ⟨sub_of_mem (by decide), sub_of_mem (by decide), sub_of_mem (by decide), sub_of_mem (by decide), sub_of_mem (by decide),
    sub_of_mem (by decide), sub_of_mem (by decide)⟩
theorem opsE_writes : (opsE : List (HloOp τ sig (Elt F))).Forall fun op =>
    op.writes ⊆ (wE.map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide)⟩
theorem opsF_writes : (opsF : List (HloOp τ sig (Elt F))).Forall fun op =>
    op.writes ⊆ (wF.map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide)⟩

/-- A buffer the first list does not write keeps its contents through it; likewise for the other five. -/
theorem keepA (V : Valuation τ sig (Elt F)) (r : Ref sig .tc) (h : r ∉ wA) :
    after opsA V (r : DevRef τ sig) = V (r : DevRef τ sig) := after_of_writes_sub opsA V opsA_writes h
theorem keepB (V : Valuation τ sig (Elt F)) (r : Ref sig .tc) (h : r ∉ wB) :
    after opsB V (r : DevRef τ sig) = V (r : DevRef τ sig) := after_of_writes_sub opsB V opsB_writes h
theorem keepC (V : Valuation τ sig (Elt F)) (r : Ref sig .tc) (h : r ∉ wC) :
    after opsC V (r : DevRef τ sig) = V (r : DevRef τ sig) := after_of_writes_sub opsC V opsC_writes h
theorem keepD (V : Valuation τ sig (Elt F)) (r : Ref sig .tc) (h : r ∉ wD) :
    after opsD V (r : DevRef τ sig) = V (r : DevRef τ sig) := after_of_writes_sub opsD V opsD_writes h
theorem keepE (V : Valuation τ sig (Elt F)) (r : Ref sig .tc) (h : r ∉ wE) :
    after opsE V (r : DevRef τ sig) = V (r : DevRef τ sig) := after_of_writes_sub opsE V opsE_writes h
theorem keepF (V : Valuation τ sig (Elt F)) (r : Ref sig .tc) (h : r ∉ wF) :
    after opsF V (r : DevRef τ sig) = V (r : DevRef τ sig) := after_of_writes_sub opsF V opsF_writes h

/-- The whole line read stage by stage. -/
theorem after_ops (V0 : Valuation τ sig (Elt F)) :
    after ops V0 = after opsF (after opsE (after opsD (after opsC (after opsB (after opsA V0))))) := by
  simp only [ops, after_append]

/-- A buffer no list writes keeps its contents through the whole line. -/
theorem keep_all (V0 : Valuation τ sig (Elt F)) (r : Ref sig .tc) (hA : r ∉ wA) (hB : r ∉ wB) (hC : r ∉ wC) (hD : r ∉ wD)
    (hE : r ∉ wE) (hF : r ∉ wF) : after ops V0 (r : DevRef τ sig) = V0 (r : DevRef τ sig) := by
  rw [after_ops, keepF _ r hF, keepE _ r hE, keepD _ r hD, keepC _ r hC, keepB _ r hB, keepA _ r hA]

/-! ## What each list computes -/

/-- The first list leaves each edge's source node. -/
theorem A_v1 (V : Valuation τ sig (Elt F)) :
    after opsA V (main_v1 : DevRef τ sig) = Cert.Sage.Ref.src (V (main_arg1 : DevRef τ sig)) := by
  after_results_simp <;> rfl

/-- The first list leaves each edge's destination node. -/
theorem A_v3 (V : Valuation τ sig (Elt F)) :
    after opsA V (main_v3 : DevRef τ sig) = Cert.Sage.Ref.dst (V (main_arg1 : DevRef τ sig)) := by
  after_results_simp <;> rfl

set_option maxRecDepth 4096 in
set_option maxHeartbeats 1000000 in
/-- The first list leaves the first layer before its activation. -/
theorem A_v28 (V : Valuation τ sig (Elt F)) :
    after opsA V (main_v28 : DevRef τ sig)
      = Cert.Sage.Ref.lin128 (V (main_arg0 : DevRef τ sig)) (V (main_arg1 : DevRef τ sig)) (V (main_arg2 : DevRef τ sig))
          (V (main_arg3 : DevRef τ sig)) (V (main_arg4 : DevRef τ sig)) := by
  after_results_simp <;> rfl

/-- The first ELU's list leaves ELU of its argument: at these literal references the typed references' transports
    are the identity. -/
theorem B_v29 (V : Valuation τ sig (Elt F)) :
    after opsB V (main_v29 : DevRef τ sig) = Cert.Sage.Ref.elu (V (main_v28 : DevRef τ sig)) := by
  after_results_simp <;> (try simp only [TRef.ofBuf, TRef.toBuf, cast_eq]) <;> rfl

set_option maxRecDepth 4096 in
set_option maxHeartbeats 1000000 in
/-- The third list leaves the aggregate of the first ELU's result, the sources and destinations being the edge
    list's. -/
theorem C_v39 (V : Valuation τ sig (Elt F)) (ei : IVec S2x800000 32)
    (h1 : V (main_v1 : DevRef τ sig) = Cert.Sage.Ref.src ei) (h3 : V (main_v3 : DevRef τ sig) = Cert.Sage.Ref.dst ei) :
    after opsC V (main_v39 : DevRef τ sig) = Cert.Sage.Ref.agg (V (main_v29 : DevRef τ sig)) ei := by
  after_results_simp
  rw [h1, h3]
  rfl

set_option maxRecDepth 4096 in
set_option maxHeartbeats 1000000 in
/-- The third list leaves the neighbour count, at least one, laid across the features. -/
theorem C_v47 (V : Valuation τ sig (Elt F)) (ei : IVec S2x800000 32)
    (h3 : V (main_v3 : DevRef τ sig) = Cert.Sage.Ref.dst ei) :
    after opsC V (main_v47 : DevRef τ sig) = Cert.Sage.Ref.denom (F := F) ei := by
  after_results_simp
  rw [h3]
  rfl

/-- The fourth list leaves the second layer before its activation, its aggregate and count being those of the
    hidden features it is given. -/
theorem D_v54 (V : Valuation τ sig (Elt F)) (h : FVec F S50000x128 .f32) (ei : IVec S2x800000 32)
    (h29 : V (main_v29 : DevRef τ sig) = h) (h39 : V (main_v39 : DevRef τ sig) = Cert.Sage.Ref.agg h ei)
    (h47 : V (main_v47 : DevRef τ sig) = Cert.Sage.Ref.denom (F := F) ei) :
    after opsD V (main_v54 : DevRef τ sig)
      = Cert.Sage.Ref.lin128 h ei (V (main_arg5 : DevRef τ sig)) (V (main_arg6 : DevRef τ sig)) (V (main_arg7 : DevRef τ sig)) := by
  after_results_simp
  rw [h39, h47, h29]
  rfl

/-- The second ELU's list leaves ELU of its argument. -/
theorem E_v55 (V : Valuation τ sig (Elt F)) :
    after opsE V (main_v55 : DevRef τ sig) = Cert.Sage.Ref.elu (V (main_v54 : DevRef τ sig)) := by
  after_results_simp <;> (try simp only [TRef.ofBuf, TRef.toBuf, cast_eq]) <;> rfl

set_option maxRecDepth 4096 in
set_option maxHeartbeats 1000000 in
/-- The sixth list leaves the third layer, the sources and destinations being the edge list's. -/
theorem F_v80 (V : Valuation τ sig (Elt F)) (ei : IVec S2x800000 32)
    (h1 : V (main_v1 : DevRef τ sig) = Cert.Sage.Ref.src ei) (h3 : V (main_v3 : DevRef τ sig) = Cert.Sage.Ref.dst ei) :
    after opsF V (main_v80 : DevRef τ sig)
      = Cert.Sage.Ref.lin64 (V (main_v55 : DevRef τ sig)) ei (V (main_arg8 : DevRef τ sig)) (V (main_arg9 : DevRef τ sig))
          (V (main_arg10 : DevRef τ sig)) := by
  after_results_simp
  rw [h1, h3]
  rfl

/-! ## The line's result -/

/-- After the whole line the result buffer holds the reference's result of the eleven arguments: each stage's
    value is read off its list, the sources, destinations and arguments carried through the lists that do not
    write them. -/
theorem out_eq (V0 : Valuation τ sig (Elt F)) :
    after ops V0 (main_v80 : DevRef τ sig)
      = Cert.Sage.Ref.out (V0 (main_arg0 : DevRef τ sig)) (V0 (main_arg1 : DevRef τ sig)) (V0 (main_arg2 : DevRef τ sig))
          (V0 (main_arg3 : DevRef τ sig)) (V0 (main_arg4 : DevRef τ sig)) (V0 (main_arg5 : DevRef τ sig))
          (V0 (main_arg6 : DevRef τ sig)) (V0 (main_arg7 : DevRef τ sig)) (V0 (main_arg8 : DevRef τ sig))
          (V0 (main_arg9 : DevRef τ sig)) (V0 (main_arg10 : DevRef τ sig)) := by
  rw [after_ops]
  obtain ⟨V1, e1⟩ : ∃ W, W = after opsA V0 := ⟨_, rfl⟩
  obtain ⟨V2, e2⟩ : ∃ W, W = after opsB V1 := ⟨_, rfl⟩
  obtain ⟨V3, e3⟩ : ∃ W, W = after opsC V2 := ⟨_, rfl⟩
  obtain ⟨V4, e4⟩ : ∃ W, W = after opsD V3 := ⟨_, rfl⟩
  obtain ⟨V5, e5⟩ : ∃ W, W = after opsE V4 := ⟨_, rfl⟩
  rw [← e1, ← e2, ← e3, ← e4, ← e5]
  -- the first list: sources, destinations, the first layer's linear part
  have a1 : V1 (main_v1 : DevRef τ sig) = Cert.Sage.Ref.src (V0 (main_arg1 : DevRef τ sig)) := by rw [e1]; exact A_v1 V0
  have a3 : V1 (main_v3 : DevRef τ sig) = Cert.Sage.Ref.dst (V0 (main_arg1 : DevRef τ sig)) := by rw [e1]; exact A_v3 V0
  have a28 := A_v28 V0
  rw [← e1] at a28
  -- the first ELU
  have b1 : V2 (main_v1 : DevRef τ sig) = Cert.Sage.Ref.src (V0 (main_arg1 : DevRef τ sig)) := by
    rw [e2, keepB _ main_v1 (by decide)]; exact a1
  have b3 : V2 (main_v3 : DevRef τ sig) = Cert.Sage.Ref.dst (V0 (main_arg1 : DevRef τ sig)) := by
    rw [e2, keepB _ main_v3 (by decide)]; exact a3
  have b29 := B_v29 V1
  rw [← e2, a28] at b29
  -- the second layer's aggregate and count
  have c1 : V3 (main_v1 : DevRef τ sig) = Cert.Sage.Ref.src (V0 (main_arg1 : DevRef τ sig)) := by
    rw [e3, keepC _ main_v1 (by decide)]; exact b1
  have c3 : V3 (main_v3 : DevRef τ sig) = Cert.Sage.Ref.dst (V0 (main_arg1 : DevRef τ sig)) := by
    rw [e3, keepC _ main_v3 (by decide)]; exact b3
  have c29 : V3 (main_v29 : DevRef τ sig) = V2 (main_v29 : DevRef τ sig) := by rw [e3, keepC _ main_v29 (by decide)]
  have c39 := C_v39 V2 _ b1 b3
  have c47 := C_v47 V2 _ b3
  rw [← e3] at c39 c47
  have c5 : V3 (main_arg5 : DevRef τ sig) = V0 (main_arg5 : DevRef τ sig) := by
    rw [e3, keepC _ main_arg5 (by decide), e2, keepB _ main_arg5 (by decide), e1, keepA _ main_arg5 (by decide)]
  have c6 : V3 (main_arg6 : DevRef τ sig) = V0 (main_arg6 : DevRef τ sig) := by
    rw [e3, keepC _ main_arg6 (by decide), e2, keepB _ main_arg6 (by decide), e1, keepA _ main_arg6 (by decide)]
  have c7 : V3 (main_arg7 : DevRef τ sig) = V0 (main_arg7 : DevRef τ sig) := by
    rw [e3, keepC _ main_arg7 (by decide), e2, keepB _ main_arg7 (by decide), e1, keepA _ main_arg7 (by decide)]
  -- the second layer's linear part and its ELU
  have d1 : V4 (main_v1 : DevRef τ sig) = Cert.Sage.Ref.src (V0 (main_arg1 : DevRef τ sig)) := by
    rw [e4, keepD _ main_v1 (by decide)]; exact c1
  have d3 : V4 (main_v3 : DevRef τ sig) = Cert.Sage.Ref.dst (V0 (main_arg1 : DevRef τ sig)) := by
    rw [e4, keepD _ main_v3 (by decide)]; exact c3
  have d54 := D_v54 V3 _ _ c29 c39 c47
  rw [← e4, c5, c6, c7, b29] at d54
  have f1 : V5 (main_v1 : DevRef τ sig) = Cert.Sage.Ref.src (V0 (main_arg1 : DevRef τ sig)) := by
    rw [e5, keepE _ main_v1 (by decide)]; exact d1
  have f3 : V5 (main_v3 : DevRef τ sig) = Cert.Sage.Ref.dst (V0 (main_arg1 : DevRef τ sig)) := by
    rw [e5, keepE _ main_v3 (by decide)]; exact d3
  have f55 := E_v55 V4
  rw [← e5, d54] at f55
  have f8 : V5 (main_arg8 : DevRef τ sig) = V0 (main_arg8 : DevRef τ sig) := by
    rw [e5, keepE _ main_arg8 (by decide), e4, keepD _ main_arg8 (by decide), e3, keepC _ main_arg8 (by decide), e2,
      keepB _ main_arg8 (by decide), e1, keepA _ main_arg8 (by decide)]
  have f9 : V5 (main_arg9 : DevRef τ sig) = V0 (main_arg9 : DevRef τ sig) := by
    rw [e5, keepE _ main_arg9 (by decide), e4, keepD _ main_arg9 (by decide), e3, keepC _ main_arg9 (by decide), e2,
      keepB _ main_arg9 (by decide), e1, keepA _ main_arg9 (by decide)]
  have f10 : V5 (main_arg10 : DevRef τ sig) = V0 (main_arg10 : DevRef τ sig) := by
    rw [e5, keepE _ main_arg10 (by decide), e4, keepD _ main_arg10 (by decide), e3, keepC _ main_arg10 (by decide), e2,
      keepB _ main_arg10 (by decide), e1, keepA _ main_arg10 (by decide)]
  -- the third layer
  rw [F_v80 V5 _ f1 f3, f55, f8, f9, f10]
  rfl

end Cert.Sage.RefRun

end
-- ==== Proof.RefRun.lean ====
/-
  The reference's run: on every device, for any float values, from any memory with zero counters, every weakly fair
  execution of @main terminates with the result buffer at the reference's result of the eleven arguments' launch
  contents, and the arguments unchanged. The run of the line gives each buffer at the fold of the operations'
  results; the fold at the result buffer is the reference's named term, and at an argument it is the launch
  contents, no operation writing an argument.
-/
import proofs.«154999_j35115652612101_1_alg».proof.Proof.RefRunB

noncomputable section

namespace Cert.Sage.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates with the result at the reference's result of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = Cert.Sage.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v80).trans (out_eq (launchContents m c)),
      (h c main_arg0).trans (keep_all (launchContents m c) main_arg0 (by decide) (by decide) (by decide) (by decide) (by decide) (by decide)),
      (h c main_arg1).trans (keep_all (launchContents m c) main_arg1 (by decide) (by decide) (by decide) (by decide) (by decide) (by decide)),
      (h c main_arg2).trans (keep_all (launchContents m c) main_arg2 (by decide) (by decide) (by decide) (by decide) (by decide) (by decide)),
      (h c main_arg3).trans (keep_all (launchContents m c) main_arg3 (by decide) (by decide) (by decide) (by decide) (by decide) (by decide)),
      (h c main_arg4).trans (keep_all (launchContents m c) main_arg4 (by decide) (by decide) (by decide) (by decide) (by decide) (by decide)),
      (h c main_arg5).trans (keep_all (launchContents m c) main_arg5 (by decide) (by decide) (by decide) (by decide) (by decide) (by decide)),
      (h c main_arg6).trans (keep_all (launchContents m c) main_arg6 (by decide) (by decide) (by decide) (by decide) (by decide) (by decide)),
      (h c main_arg7).trans (keep_all (launchContents m c) main_arg7 (by decide) (by decide) (by decide) (by decide) (by decide) (by decide)),
      (h c main_arg8).trans (keep_all (launchContents m c) main_arg8 (by decide) (by decide) (by decide) (by decide) (by decide) (by decide)),
      (h c main_arg9).trans (keep_all (launchContents m c) main_arg9 (by decide) (by decide) (by decide) (by decide) (by decide) (by decide)),
      (h c main_arg10).trans (keep_all (launchContents m c) main_arg10 (by decide) (by decide) (by decide) (by decide) (by decide) (by decide))⟩)
    (run_after m ρ)

end Cert.Sage.RefRun

end
-- ==== Proof.lean ====
/-
  Three stacked mean-aggregating graph layers (ELU between them) over 50000 nodes and 800000 edges: a program whose
  dense part of each layer runs on the chip, 2000 rows at a time, against the plain reference.

  Both programs build, with the same host operations, the per-node sums of the neighbours' feature rows and the
  per-node count of in-edges. The reference divides the sums by the count (at least one), multiplies by the
  neighbour weights, adds the node's own features times the self weights and the bias, and applies ELU written as
  `x` where positive and `1 · (e^y − 1)` elsewhere. The kernel program computes the reciprocal of the count once, and
  in each layer multiplies the sums by it, takes the two products into a zero accumulator on blocks of 2000 rows,
  adds the bias row and applies `x` where positive and `e^x − 1` elsewhere.

  On the extended reals these are one function. A count that is at least one is not zero, and off zero
  `a / c = a · c⁻¹ = a · (1 / c)`, at the infinities too; a product into zero and a host product are both the sum over
  the 128 contracted positions; the two ELU spellings agree case by case; the rounding of the products' factors
  to a narrower format is the identity. No input needs to be finite for any of it.

  The pieces: `Spec` (the layer formula at an entry), `Payload` (what one grid point stores is the formula of its
  blocks), `Region0/1/2` (each layer's result array after its 25 points is the formula of the arrays the layer
  found), `KernelChain` (the result buffer read back through the three layers to the arguments), `RefRun` (the
  reference's run read back), `Bridge` (the two results are one function).
-/
import proofs.«154999_j35115652612101_1_alg».proof.Defs
import proofs.«154999_j35115652612101_1_alg».proof.Proof.Gen.Kernel
import proofs.«154999_j35115652612101_1_alg».proof.Proof.Gen.KernelIdeal
import proofs.«154999_j35115652612101_1_alg».proof.Proof.Gen.ReferenceIdeal
import proofs.«154999_j35115652612101_1_alg».proof.Proof.Gen.Pre_finite_inputs
import proofs.«154999_j35115652612101_1_alg».proof.Proof.KernelFrame
import proofs.«154999_j35115652612101_1_alg».proof.Proof.KernelIdealFrame
import proofs.«154999_j35115652612101_1_alg».proof.Proof.KernelIdealRun
import proofs.«154999_j35115652612101_1_alg».proof.Proof.Bridge
import proofs.«154999_j35115652612101_1_alg».proof.Proof.KernelChain
import proofs.«154999_j35115652612101_1_alg».proof.Proof.RefRun
import Idealize.ShloMosaic.Adequacy
import Idealize.ShloMosaic.Init

set_option maxRecDepth 16384

noncomputable section

namespace Cert.Proof

open Idealize.ShloMosaic Idealize.SL.Sem

/-- The word-level program runs and keeps its arguments. -/
theorem frame_k : Cert.frame_Kernel := fun m ρ _ => Cert.Kernel.GenP.frame m ρ

/-- So does the idealized program. -/
theorem frame_ki : Cert.frame_KernelIdeal := fun m ρ _ => Cert.KernelIdeal.GenP.frame m ρ

/-- The reference's run, its result dropped. -/
theorem frame_ri : Cert.frame_ReferenceIdeal := fun m ρ _ =>
  (θ_run Cert.ReferenceIdeal.defs _ _).mono (fun _ h c => (h c).2) (Cert.Sage.RefRun.run (F := Ideal) m ρ)

/-- The idealization rewrote nothing. -/
theorem preserves : Cert.preserves_Kernel_KernelIdeal := trivial

/-- On the extended reals the kernel program ends with its result array at the three layers of its arguments,
    the reference at its own three layers of arguments that agree, and the two are one function. -/
theorem algebraic : Cert.algebraic_KernelIdeal_ReferenceIdeal := by
  intro m ρ m' ρ' _ hagree
  refine ⟨fun c => Cert.Sage.K.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ?_) (Cert.KernelIdeal.GenP.run_W6 m ρ)
    exact ⟨(h c _ (Cert.KernelIdeal.GenP.mem_uc Cert.KernelIdeal.main_v48 (by decide))).trans (Cert.Sage.Chain.out_eq m ρ c),
      (h c _ (Cert.KernelIdeal.GenP.mem_uc Cert.KernelIdeal.main_arg0 (by decide))).trans (Cert.KernelIdeal.GenP.W6_main_arg0 m ρ c),
      (h c _ (Cert.KernelIdeal.GenP.mem_uc Cert.KernelIdeal.main_arg1 (by decide))).trans (Cert.KernelIdeal.GenP.W6_main_arg1 m ρ c),
      (h c _ (Cert.KernelIdeal.GenP.mem_uc Cert.KernelIdeal.main_arg2 (by decide))).trans (Cert.KernelIdeal.GenP.W6_main_arg2 m ρ c),
      (h c _ (Cert.KernelIdeal.GenP.mem_uc Cert.KernelIdeal.main_arg3 (by decide))).trans (Cert.KernelIdeal.GenP.W6_main_arg3 m ρ c),
      (h c _ (Cert.KernelIdeal.GenP.mem_uc Cert.KernelIdeal.main_arg4 (by decide))).trans (Cert.KernelIdeal.GenP.W6_main_arg4 m ρ c),
      (h c _ (Cert.KernelIdeal.GenP.mem_uc Cert.KernelIdeal.main_arg5 (by decide))).trans (Cert.KernelIdeal.GenP.W6_main_arg5 m ρ c),
      (h c _ (Cert.KernelIdeal.GenP.mem_uc Cert.KernelIdeal.main_arg6 (by decide))).trans (Cert.KernelIdeal.GenP.W6_main_arg6 m ρ c),
      (h c _ (Cert.KernelIdeal.GenP.mem_uc Cert.KernelIdeal.main_arg7 (by decide))).trans (Cert.KernelIdeal.GenP.W6_main_arg7 m ρ c),
      (h c _ (Cert.KernelIdeal.GenP.mem_uc Cert.KernelIdeal.main_arg8 (by decide))).trans (Cert.KernelIdeal.GenP.W6_main_arg8 m ρ c),
      (h c _ (Cert.KernelIdeal.GenP.mem_uc Cert.KernelIdeal.main_arg9 (by decide))).trans (Cert.KernelIdeal.GenP.W6_main_arg9 m ρ c),
      (h c _ (Cert.KernelIdeal.GenP.mem_uc Cert.KernelIdeal.main_arg10 (by decide))).trans (Cert.KernelIdeal.GenP.W6_main_arg10 m ρ c)⟩
  · refine (θ_run Cert.ReferenceIdeal.defs _ _).mono (fun r h c => ⟨(h c).1.trans ?_, (h c).2⟩)
      (Cert.Sage.RefRun.run (F := Ideal) m' ρ')
    obtain ⟨e0, e1, e2, e3, e4, e5, e6, e7, e8, e9, e10⟩ := hagree c
    rw [e0, e1, e2, e3, e4, e5, e6, e7, e8, e9, e10]
    exact (Cert.Sage.Bridge.out_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
